-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2x257x8 : Shape := ⟨4, ![16384, 2, 257, 8]⟩
abbrev S24x2x257x8 : Shape := ⟨4, ![24, 2, 257, 8]⟩
abbrev S16384 : Shape := ⟨1, ![16384]⟩
abbrev S_ : Shape := ⟨0, ![]⟩

class Facts : Prop where
  bcast_S_S16384x2x257x8 : S_.BroadcastsInDim S16384x2x257x8 (![] : Fin 0 → Fin S16384x2x257x8.rank)
  reducesTo_S16384x2x257x8_S_d0_1_2_3 : S16384x2x257x8.ReducesTo [0, 1, 2, 3] S_
  h_S_ : 0 < S_.numel
  bcast_S_S24x2x257x8 : S_.BroadcastsInDim S24x2x257x8 (![] : Fin 0 → Fin S24x2x257x8.rank)
  reducesTo_S24x2x257x8_S_d0_1_2_3 : S24x2x257x8.ReducesTo [0, 1, 2, 3] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x2x257x8 .f32) (main_arg1 : FVec F S24x2x257x8 .f32) (main_arg2 : IVec S16384 32) : IVec S_ 1 :=
  let main_v0 : FVec F S16384x2x257x8 .f32 := Host.absf main_arg0
  let main_cst : FVec F S_ .f32 := constant S_ .f32 0x7F800000#32
  let main_v1 : FVec F S16384x2x257x8 .f32 := broadcastInDim S16384x2x257x8 ![] bcast_S_S16384x2x257x8 main_cst
  let main_v2 : IVec S16384x2x257x8 1 := cmpf .olt main_v0 main_v1
  let main_c : IVec S_ 1 := constantI S_ 1 1#1
  let main_v3 : IVec S_ 1 := (fun x v => Host.reduce IntOp.andi x v reducesTo_S16384x2x257x8_S_d0_1_2_3 h_S_) main_v2 main_c
  let main_v4 : FVec F S24x2x257x8 .f32 := Host.absf main_arg1
  let main_cst_0 : FVec F S_ .f32 := constant S_ .f32 0x7F800000#32
  let main_v5 : FVec F S24x2x257x8 .f32 := broadcastInDim S24x2x257x8 ![] bcast_S_S24x2x257x8 main_cst_0
  let main_v6 : IVec S24x2x257x8 1 := cmpf .olt main_v4 main_v5
  let main_c_1 : IVec S_ 1 := constantI S_ 1 1#1
  let main_v7 : IVec S_ 1 := (fun x v => Host.reduce IntOp.andi x v reducesTo_S24x2x257x8_S_d0_1_2_3 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 24#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x2x257x8 : Shape := ⟨4, ![16384, 2, 257, 8]⟩
abbrev S24x2x257x8 : Shape := ⟨4, ![24, 2, 257, 8]⟩
abbrev S16384 : Shape := ⟨1, ![16384]⟩
abbrev S16384x2x8x257 : Shape := ⟨4, ![16384, 2, 8, 257]⟩
abbrev S16384x4112 : Shape := ⟨2, ![16384, 4112]⟩
abbrev S24x2x8x257 : Shape := ⟨4, ![24, 2, 8, 257]⟩
abbrev S24x4112 : Shape := ⟨2, ![24, 4112]⟩
abbrev S_ : Shape := ⟨0, ![]⟩
abbrev S16384x1 : Shape := ⟨2, ![16384, 1]⟩
abbrev S1x24 : Shape := ⟨2, ![1, 24]⟩
abbrev S16384x24 : Shape := ⟨2, ![16384, 24]⟩
abbrev S16384x514 : Shape := ⟨2, ![16384, 514]⟩
abbrev S256x24 : Shape := ⟨2, ![256, 24]⟩
abbrev S256x4112 : Shape := ⟨2, ![256, 4112]⟩
abbrev S256x514 : Shape := ⟨2, ![256, 514]⟩
abbrev S256x257 : Shape := ⟨2, ![256, 257]⟩
abbrev S16384x2x257 : Shape := ⟨3, ![16384, 2, 257]⟩
abbrev S16384x2x257x1 : Shape := ⟨4, ![16384, 2, 257, 1]⟩

abbrev nBuf : Space → Nat
  | .hbm => 28
  | .vmem => 9
  | .smem => 0
  | _ => 0

abbrev bufTy : (tb : Table) → Fin (tcTables nBuf tb) → BufTy
  | .hbm, ⟨0, _⟩ => ⟨S16384x2x257x8, .f32⟩
  | .hbm, ⟨1, _⟩ => ⟨S24x2x257x8, .f32⟩
  | .hbm, ⟨2, _⟩ => ⟨S16384, .i32⟩
  | .hbm, ⟨3, _⟩ => ⟨S16384x2x8x257, .f32⟩
  | .hbm, ⟨4, _⟩ => ⟨S16384x4112, .f32⟩
  | .hbm, ⟨5, _⟩ => ⟨S24x2x8x257, .f32⟩
  | .hbm, ⟨6, _⟩ => ⟨S24x4112, .f32⟩
  | .hbm, ⟨7, _⟩ => ⟨S24x4112, .bf16⟩
  | .hbm, ⟨8, _⟩ => ⟨S24x4112, .f32⟩
  | .hbm, ⟨9, _⟩ => ⟨S24x4112, .f32⟩
  | .hbm, ⟨10, _⟩ => ⟨S24x4112, .bf16⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S1x24, .i32⟩
  | .hbm, ⟨21, _⟩ => ⟨S16384x24, .i32⟩
  | .hbm, ⟨22, _⟩ => ⟨S16384x24, .i32⟩
  | .hbm, ⟨23, _⟩ => ⟨S16384x24, .i1⟩
  | .hbm, ⟨24, _⟩ => ⟨S16384x24, .f32⟩
  | .hbm, ⟨25, _⟩ => ⟨S16384x514, .f32⟩
  | .hbm, ⟨26, _⟩ => ⟨S16384x2x257, .f32⟩
  | .hbm, ⟨27, _⟩ => ⟨S16384x2x257x1, .f32⟩
  | .local _ .vmem, ⟨0, _⟩ => ⟨S256x24, .f32⟩
  | .local _ .vmem, ⟨1, _⟩ => ⟨S256x24, .f32⟩
  | .local _ .vmem, ⟨2, _⟩ => ⟨S256x4112, .f32⟩
  | .local _ .vmem, ⟨3, _⟩ => ⟨S256x4112, .f32⟩
  | .local _ .vmem, ⟨4, _⟩ => ⟨S24x4112, .bf16⟩
  | .local _ .vmem, ⟨5, _⟩ => ⟨S24x4112, .bf16⟩
  | .local _ .vmem, ⟨6, _⟩ => ⟨S256x514, .f32⟩
  | .local _ .vmem, ⟨7, _⟩ => ⟨S256x514, .f32⟩
  | .local _ .vmem, ⟨8, _⟩ => ⟨S256x4112, .f32⟩
  | _, _ => ⟨S16384x2x257x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24x4112 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x4112 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S16384x2x257x8_S16384x2x8x257_0_1_3_2 : S16384x2x257x8.Transposes [0, 1, 3, 2] S16384x2x8x257
  shapeCasts_S16384x2x8x257_S16384x4112 : S16384x2x8x257.ShapeCasts S16384x4112
  transposes_S24x2x257x8_S24x2x8x257_0_1_3_2 : S24x2x257x8.Transposes [0, 1, 3, 2] S24x2x8x257
  shapeCasts_S24x2x8x257_S24x4112 : S24x2x8x257.ShapeCasts S24x4112
  bitsLt_bf16_f32 : FTy.bits .bf16 < FTy.bits .f32
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x24_0_1 : S16384x1.BroadcastsInDim S16384x24 (![0, 1] : Fin 2 → Fin S16384x24.rank)
  bcast_S1x24_S16384x24_0_1 : S1x24.BroadcastsInDim S16384x24 (![0, 1] : Fin 2 → Fin S16384x24.rank)
  inb_S256x24_S256x24_0_0 : ∀ a, (![0, 0] : Fin 2 → Nat) a + S256x24.size a ≤ S256x24.size a
  h_S256x24 : 0 < S256x24.numel
  shapeCasts_S256x24_S256x24 : S256x24.ShapeCasts S256x24
  inb_S24x4112_S24x4112_0_0 : ∀ a, (![0, 0] : Fin 2 → Nat) a + S24x4112.size a ≤ S24x4112.size a
  h_S24x4112 : 0 < S24x4112.numel
  shapeCasts_S24x4112_S24x4112 : S24x4112.ShapeCasts S24x4112
  inb_S256x4112_S256x4112_0_0 : ∀ a, (![0, 0] : Fin 2 → Nat) a + S256x4112.size a ≤ S256x4112.size a
  h_S256x4112 : 0 < S256x4112.numel
  shapeCasts_S256x4112_S256x4112 : S256x4112.ShapeCasts S256x4112
  inb_S256x4112_S256x257_0_0 : ∀ a, (![0, 0] : Fin 2 → Nat) a + S256x257.size a ≤ S256x4112.size a
  h_S256x257 : 0 < S256x257.numel
  shapeCasts_S256x257_S256x257 : S256x257.ShapeCasts S256x257
  inb_S256x4112_S256x257_0_2056 : ∀ a, (![0, 2056] : Fin 2 → Nat) a + S256x257.size a ≤ S256x4112.size a
  inb_S256x4112_S256x257_0_257 : ∀ a, (![0, 257] : Fin 2 → Nat) a + S256x257.size a ≤ S256x4112.size a
  inb_S256x4112_S256x257_0_2313 : ∀ a, (![0, 2313] : Fin 2 → Nat) a + S256x257.size a ≤ S256x4112.size a
  inb_S256x4112_S256x257_0_514 : ∀ a, (![0, 514] : Fin 2 → Nat) a + S256x257.size a ≤ S256x4112.size a
  inb_S256x4112_S256x257_0_2570 : ∀ a, (![0, 2570] : Fin 2 → Nat) a + S256x257.size a ≤ S256x4112.size a
  inb_S256x4112_S256x257_0_771 : ∀ a, (![0, 771] : Fin 2 → Nat) a + S256x257.size a ≤ S256x4112.size a
  inb_S256x4112_S256x257_0_2827 : ∀ a, (![0, 2827] : Fin 2 → Nat) a + S256x257.size a ≤ S256x4112.size a
  inb_S256x4112_S256x257_0_1028 : ∀ a, (![0, 1028] : Fin 2 → Nat) a + S256x257.size a ≤ S256x4112.size a
  inb_S256x4112_S256x257_0_3084 : ∀ a, (![0, 3084] : Fin 2 → Nat) a + S256x257.size a ≤ S256x4112.size a
  inb_S256x4112_S256x257_0_1285 : ∀ a, (![0, 1285] : Fin 2 → Nat) a + S256x257.size a ≤ S256x4112.size a
  inb_S256x4112_S256x257_0_3341 : ∀ a, (![0, 3341] : Fin 2 → Nat) a + S256x257.size a ≤ S256x4112.size a
  inb_S256x4112_S256x257_0_1542 : ∀ a, (![0, 1542] : Fin 2 → Nat) a + S256x257.size a ≤ S256x4112.size a
  inb_S256x4112_S256x257_0_3598 : ∀ a, (![0, 3598] : Fin 2 → Nat) a + S256x257.size a ≤ S256x4112.size a
  inb_S256x4112_S256x257_0_1799 : ∀ a, (![0, 1799] : Fin 2 → Nat) a + S256x257.size a ≤ S256x4112.size a
  inb_S256x4112_S256x257_0_3855 : ∀ a, (![0, 3855] : Fin 2 → Nat) a + S256x257.size a ≤ S256x4112.size a
  inb_S256x514_S256x257_0_0 : ∀ a, (![0, 0] : Fin 2 → Nat) a + S256x257.size a ≤ S256x514.size a
  inb_S256x514_S256x257_0_257 : ∀ a, (![0, 257] : Fin 2 → Nat) a + S256x257.size a ≤ S256x514.size a
  shapeCasts_S16384x514_S16384x2x257 : S16384x514.ShapeCasts S16384x2x257
  bcast_S16384x2x257_S16384x2x257x1_0_1_2 : S16384x2x257.BroadcastsInDim S16384x2x257x1 (![0, 1, 2] : Fin 3 → Fin S16384x2x257x1.rank)
  dot_S256x24_S24x4112_S256x4112_1_0_0_1_n_n_wf : DotDims.WF S256x24 S24x4112 S256x4112 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x24.size a ≤ S16384x24.size a
  hwx0_0 : ∀ i : grid0.Coords, EltTy.bits .f32 = 32 ∨ (Rect.block (s := S16384x24) S256x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4112.size a ≤ S16384x4112.size a
  hwx0_1 : ∀ i : grid0.Coords, EltTy.bits .f32 = 32 ∨ (Rect.block (s := S16384x4112) S256x4112.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24x4112.size a ≤ S24x4112.size a
  hwx0_2 : ∀ i : grid0.Coords, EltTy.bits .bf16 = 32 ∨ (Rect.block (s := S24x4112) S24x4112.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x4112.size a ≤ S24x4112.size a
  hwx0_3 : ∀ i : grid0.Coords, EltTy.bits .bf16 = 32 ∨ (Rect.block (s := S24x4112) S24x4112.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x514.size a ≤ S16384x514.size a
  hwx0_4 : ∀ i : grid0.Coords, EltTy.bits .f32 = 32 ∨ (Rect.block (s := S16384x514) S256x514.size (cc0_transform_4 i) (hinb0_4 i)).WholeWords (EltTy.packing .f32)

variable [Facts₀]

def dot_S256x24_S24x4112_S256x4112_1_0_0_1_n_n : DotDims S256x24 S24x4112 S256x4112 where
  lhsContracting := [1]
  rhsContracting := [0]
  lhsNonContracting := [0]
  rhsNonContracting := [1]
  lhsBatch := []
  rhsBatch := []
  wf := dot_S256x24_S24x4112_S256x4112_1_0_0_1_n_n_wf

abbrev win0_0 : Pipeline.Window sig grid0 :=
  Pipeline.Window.ofSpec (Memref.whole main_v9) S256x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4112.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S24x4112.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S24x4112.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S256x514.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2x257x8 : Shape := ⟨4, ![16384, 2, 257, 8]⟩
abbrev S24x2x257x8 : Shape := ⟨4, ![24, 2, 257, 8]⟩
abbrev S16384 : Shape := ⟨1, ![16384]⟩
abbrev S_ : Shape := ⟨0, ![]⟩
abbrev S16384x1 : Shape := ⟨2, ![16384, 1]⟩
abbrev S16384x1x257x8 : Shape := ⟨4, ![16384, 1, 257, 8]⟩
abbrev S16384x257x8 : Shape := ⟨3, ![16384, 257, 8]⟩
abbrev S16384x257 : Shape := ⟨2, ![16384, 257]⟩
abbrev S16384x1x257 : Shape := ⟨3, ![16384, 1, 257]⟩
abbrev S16384x2x257 : Shape := ⟨3, ![16384, 2, 257]⟩
abbrev S16384x2x257x1 : Shape := ⟨4, ![16384, 2, 257, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x2x257x8, .f32⟩
  | .hbm, ⟨1, _⟩ => ⟨S24x2x257x8, .f32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x2x257x8, .f32⟩
  | .hbm, ⟨12, _⟩ => ⟨S16384x1x257x8, .f32⟩
  | .hbm, ⟨13, _⟩ => ⟨S16384x257x8, .f32⟩
  | .hbm, ⟨14, _⟩ => ⟨S16384x1x257x8, .f32⟩
  | .hbm, ⟨15, _⟩ => ⟨S16384x257x8, .f32⟩
  | .hbm, ⟨16, _⟩ => ⟨S16384x1x257x8, .f32⟩
  | .hbm, ⟨17, _⟩ => ⟨S16384x257x8, .f32⟩
  | .hbm, ⟨18, _⟩ => ⟨S16384x1x257x8, .f32⟩
  | .hbm, ⟨19, _⟩ => ⟨S16384x257x8, .f32⟩
  | .hbm, ⟨20, _⟩ => ⟨S16384x257x8, .f32⟩
  | .hbm, ⟨21, _⟩ => ⟨S16384x257x8, .f32⟩
  | .hbm, ⟨22, _⟩ => ⟨S16384x257x8, .f32⟩
  | .hbm, ⟨23, _⟩ => ⟨S_, .f32⟩
  | .hbm, ⟨24, _⟩ => ⟨S16384x257, .f32⟩
  | .hbm, ⟨25, _⟩ => ⟨S16384x257x8, .f32⟩
  | .hbm, ⟨26, _⟩ => ⟨S16384x257x8, .f32⟩
  | .hbm, ⟨27, _⟩ => ⟨S16384x257x8, .f32⟩
  | .hbm, ⟨28, _⟩ => ⟨S_, .f32⟩
  | .hbm, ⟨29, _⟩ => ⟨S16384x257, .f32⟩
  | .hbm, ⟨30, _⟩ => ⟨S16384x1x257, .f32⟩
  | .hbm, ⟨31, _⟩ => ⟨S16384x1x257, .f32⟩
  | .hbm, ⟨32, _⟩ => ⟨S16384x2x257, .f32⟩
  | .hbm, ⟨33, _⟩ => ⟨S16384x2x257x1, .f32⟩
  | _, _ => ⟨S16384x2x257x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  slices_S16384x2x257x8_S16384x1x257x8_0_0_0_0 : S16384x2x257x8.Slices ![0, 0, 0, 0] S16384x1x257x8
  shapeCasts_S16384x1x257x8_S16384x257x8 : S16384x1x257x8.ShapeCasts S16384x257x8
  slices_S16384x2x257x8_S16384x1x257x8_0_1_0_0 : S16384x2x257x8.Slices ![0, 1, 0, 0] S16384x1x257x8
  reducesTo_S16384x257x8_S16384x257_d2 : S16384x257x8.ReducesTo [2] S16384x257
  h_S_ : 0 < S_.numel
  bcast_S16384x257_S16384x1x257_0_2 : S16384x257.BroadcastsInDim S16384x1x257 (![0, 2] : Fin 2 → Fin S16384x1x257.rank)
  concatenates_S16384x1x257_S16384x1x257_S16384x2x257_d1 : Shape.Concatenates [S16384x1x257, S16384x1x257] S16384x2x257 1
  bcast_S16384x2x257_S16384x2x257x1_0_1_2 : S16384x2x257.BroadcastsInDim S16384x2x257x1 (![0, 1, 2] : Fin 3 → Fin S16384x2x257x1.rank)
  gather_S24x2x257x8_S16384x1_S16384x2x257x8_123_0_n_n_0_1_122578_wf : GatherDims.WF S24x2x257x8 S16384x1 S16384x2x257x8 [1, 2, 3] [0] [] [0] [] 1 ![1, 2, 257, 8]

variable [Facts₀]

def gather_S24x2x257x8_S16384x1_S16384x2x257x8_123_0_n_n_0_1_122578 : GatherDims S24x2x257x8 S16384x1 S16384x2x257x8 where
  offsetDims := [1, 2, 3]
  collapsedSliceDims := [0]
  operandBatchingDims := []
  startIndicesBatchingDims := []
  startIndexMap := [0]
  indexVectorDim := 1
  sliceSizes := ![1, 2, 257, 8]
  wf := gather_S24x2x257x8_S16384x1_S16384x2x257x8_123_0_n_n_0_1_122578_wf

class Facts : Prop extends Facts₀ where

variable [Facts]
-- ==== Proof.Spec.lean ====
import Idealize.ShloMosaic.PureOps.Ideal.Laws
import Idealize.ShloMosaic.Lib.ValueIdx
import Mathlib.Algebra.BigOperators.Fin

noncomputable section

open Idealize.ShloMosaic Idealize.ShloMosaic.ValueIdx

namespace Cert.BeamSpec

/-! ## The mathematics of the beam filter-and-sum

Frame n has a complex spectrum x[n, ·, f, c] over 257 bins and 8 channels (real part at index 0 of the second axis, imaginary at 1), a
beam id, and that beam's complex filter w[b, ·, f, c]. The result at (n, f) is Σ_c conj(w)·x: real part Σ_c (xr·wr + xi·wi),
imaginary part Σ_c (xi·wr − xr·wi).

One side of the comparison works on rows merged channel-major into 4112 = 2 · 8 · 257 columns (column r·2056 + c·257 + f holds
entry (r, f, c)), selects the filter row by a one-hot product against the bank split in two halves hi + lo with lo = w − hi, and folds
the channels first to last. This module shows that this equals the sums above whenever the bank's entries are reals (so that
w − w = 0) and the one-hot row is the indicator of the beam. -/

/-- Column o + q, for a slab of 257 columns that starts at column o. -/
def cl (o : Nat) (h : o + 257 ≤ 4112) (q : Fin 257) : Fin 4112 := ⟨o + q.val, by have := q.isLt; omega⟩

/-- Bin q of channel c: its column in the real half, -/
def colR (c : Fin 8) (q : Fin 257) : Fin 4112 := ⟨c.val * 257 + q.val, by have := c.isLt; have := q.isLt; omega⟩
/-- and in the imaginary half. -/
def colI (c : Fin 8) (q : Fin 257) : Fin 4112 := ⟨2056 + c.val * 257 + q.val, by have := c.isLt; have := q.isLt; omega⟩

theorem cl_colR (c : Fin 8) (q : Fin 257) (o : Nat) (h : o + 257 ≤ 4112) (ho : o = c.val * 257) : cl o h q = colR c q := by
  subst ho; rfl
theorem cl_colI (c : Fin 8) (q : Fin 257) (o : Nat) (h : o + 257 ≤ 4112) (ho : o = 2056 + c.val * 257) : cl o h q = colI c q := by
  subst ho; rfl

/-- The real half of a row at bin q: the fold over the channels, first to last, from zero, of xr·wr + xi·wi; X is the row of x and W the
    row of the selected filter, both over the merged columns. -/
def reAt (X W : Fin 4112 → EReal) (q : Fin 257) : EReal :=
  0 + X (cl 0 (by decide) q) * W (cl 0 (by decide) q) + X (cl 2056 (by decide) q) * W (cl 2056 (by decide) q) + X (cl 257 (by decide) q) * W (cl 257 (by decide) q) + X (cl 2313 (by decide) q) * W (cl 2313 (by decide) q) + X (cl 514 (by decide) q) * W (cl 514 (by decide) q) + X (cl 2570 (by decide) q) * W (cl 2570 (by decide) q) + X (cl 771 (by decide) q) * W (cl 771 (by decide) q) + X (cl 2827 (by decide) q) * W (cl 2827 (by decide) q) + X (cl 1028 (by decide) q) * W (cl 1028 (by decide) q) + X (cl 3084 (by decide) q) * W (cl 3084 (by decide) q) + X (cl 1285 (by decide) q) * W (cl 1285 (by decide) q) + X (cl 3341 (by decide) q) * W (cl 3341 (by decide) q) + X (cl 1542 (by decide) q) * W (cl 1542 (by decide) q) + X (cl 3598 (by decide) q) * W (cl 3598 (by decide) q) + X (cl 1799 (by decide) q) * W (cl 1799 (by decide) q) + X (cl 3855 (by decide) q) * W (cl 3855 (by decide) q)

/-- The imaginary half: the fold of xi·wr − xr·wi. -/
def imAt (X W : Fin 4112 → EReal) (q : Fin 257) : EReal :=
  0 + X (cl 2056 (by decide) q) * W (cl 0 (by decide) q) - X (cl 0 (by decide) q) * W (cl 2056 (by decide) q) + X (cl 2313 (by decide) q) * W (cl 257 (by decide) q) - X (cl 257 (by decide) q) * W (cl 2313 (by decide) q) + X (cl 2570 (by decide) q) * W (cl 514 (by decide) q) - X (cl 514 (by decide) q) * W (cl 2570 (by decide) q) + X (cl 2827 (by decide) q) * W (cl 771 (by decide) q) - X (cl 771 (by decide) q) * W (cl 2827 (by decide) q) + X (cl 3084 (by decide) q) * W (cl 1028 (by decide) q) - X (cl 1028 (by decide) q) * W (cl 3084 (by decide) q) + X (cl 3341 (by decide) q) * W (cl 1285 (by decide) q) - X (cl 1285 (by decide) q) * W (cl 3341 (by decide) q) + X (cl 3598 (by decide) q) * W (cl 1542 (by decide) q) - X (cl 1542 (by decide) q) * W (cl 3598 (by decide) q) + X (cl 3855 (by decide) q) * W (cl 1799 (by decide) q) - X (cl 1799 (by decide) q) * W (cl 3855 (by decide) q)

/-- The real fold is the sum over the channels: addition of extended reals is associative. -/
theorem reAt_eq_sum (X W : Fin 4112 → EReal) (q : Fin 257) :
    reAt X W q = 0 + ∑ c : Fin 8, (X (colR c q) * W (colR c q) + X (colI c q) * W (colI c q)) := by
  rw [Fin.sum_univ_eight]
  unfold reAt
  rw [cl_colR 0 q 0 _ rfl, cl_colI 0 q 2056 _ rfl, cl_colR 1 q 257 _ rfl, cl_colI 1 q 2313 _ rfl, cl_colR 2 q 514 _ rfl, cl_colI 2 q 2570 _ rfl, cl_colR 3 q 771 _ rfl, cl_colI 3 q 2827 _ rfl, cl_colR 4 q 1028 _ rfl, cl_colI 4 q 3084 _ rfl, cl_colR 5 q 1285 _ rfl, cl_colI 5 q 3341 _ rfl, cl_colR 6 q 1542 _ rfl, cl_colI 6 q 3598 _ rfl, cl_colR 7 q 1799 _ rfl, cl_colI 7 q 3855 _ rfl]
  simp only [add_assoc]

/-- So is the imaginary fold: a difference is the sum with the opposite. -/
theorem imAt_eq_sum (X W : Fin 4112 → EReal) (q : Fin 257) :
    imAt X W q = 0 + ∑ c : Fin 8, (X (colI c q) * W (colR c q) - X (colR c q) * W (colI c q)) := by
  rw [Fin.sum_univ_eight]
  unfold imAt
  rw [cl_colR 0 q 0 _ rfl, cl_colI 0 q 2056 _ rfl, cl_colR 1 q 257 _ rfl, cl_colI 1 q 2313 _ rfl, cl_colR 2 q 514 _ rfl, cl_colI 2 q 2570 _ rfl, cl_colR 3 q 771 _ rfl, cl_colI 3 q 2827 _ rfl, cl_colR 4 q 1028 _ rfl, cl_colI 4 q 3084 _ rfl, cl_colR 5 q 1285 _ rfl, cl_colI 5 q 3341 _ rfl, cl_colR 6 q 1542 _ rfl, cl_colI 6 q 3598 _ rfl, cl_colR 7 q 1799 _ rfl, cl_colI 7 q 3855 _ rfl]
  simp only [sub_eq_add_neg, add_assoc]

/-- A sum against an indicator row picks its one term. -/
theorem sum_indicator {K : Nat} (oh w : Fin K → EReal) (b : Fin K) (hoh : ∀ k, oh k = if k = b then 1 else 0) :
    ∑ k, oh k * w k = w b := by
  simp only [hoh, ite_mul, one_mul, zero_mul, Finset.sum_ite_eq', Finset.mem_univ, if_true]

/-- A real minus itself is zero (an infinity minus itself is not). -/
theorem sub_self_of_real (x : EReal) (h : ∃ r : ℝ, x = (r : EReal)) : x - x = 0 := by
  obtain ⟨r, rfl⟩ := h
  rw [← EReal.coe_sub, sub_self, EReal.coe_zero]

abbrev SX : Shape := ⟨4, ![16384, 2, 257, 8]⟩
abbrev SW : Shape := ⟨4, ![24, 2, 257, 8]⟩
abbrev SO : Shape := ⟨4, ![16384, 2, 257, 1]⟩
abbrev SXm : Shape := ⟨2, ![16384, 4112]⟩
abbrev SWm : Shape := ⟨2, ![24, 4112]⟩
abbrev SOH : Shape := ⟨2, ![16384, 24]⟩
abbrev SOm : Shape := ⟨2, ![16384, 514]⟩

/-- Row n of the selected filter at column j: the one-hot row against column j of the leading half of the bank, plus the same against
    the trailing half. -/
def wsel (OH : SOH.Idx → EReal) (WHI WLO : SWm.Idx → EReal) (n : Fin 16384) (j : Fin 4112) : EReal :=
  (∑ k : Fin 24, OH (ix2 n k) * WHI (ix2 k j)) + ∑ k : Fin 24, OH (ix2 n k) * WLO (ix2 k j)

/-- The merged result [16384, 514]: columns 0 … 256 the real half, 257 … 513 the imaginary half. -/
def merged (X : SXm.Idx → EReal) (OH : SOH.Idx → EReal) (WHI WLO : SWm.Idx → EReal) : SOm.Idx → EReal := fun i =>
  if h : (i 1).val < 257 then
    reAt (fun j => X (ix2 ⟨(i 0).val, (i 0).isLt⟩ j)) (wsel OH WHI WLO ⟨(i 0).val, (i 0).isLt⟩) ⟨(i 1).val, h⟩
  else
    imAt (fun j => X (ix2 ⟨(i 0).val, (i 0).isLt⟩ j)) (wsel OH WHI WLO ⟨(i 0).val, (i 0).isLt⟩)
      ⟨(i 1).val - 257, by have h1 : (i 1).val < 514 := (i 1).isLt; omega⟩

/-- THE RESULT, in closed form: frame n's spectrum against the conjugate of the filter of beam sel n, summed over the channels. -/
def beamSum (x : SX.Idx → EReal) (w : SW.Idx → EReal) (sel : Fin 16384 → Fin 24) : SO.Idx → EReal := fun i =>
  if (i 1).val = 0 then
    0 + ∑ k : Fin 8, (x (ix4 ⟨(i 0).val, (i 0).isLt⟩ 0 ⟨(i 2).val, (i 2).isLt⟩ k) * w (ix4 (sel ⟨(i 0).val, (i 0).isLt⟩) 0 ⟨(i 2).val, (i 2).isLt⟩ k)
      + x (ix4 ⟨(i 0).val, (i 0).isLt⟩ 1 ⟨(i 2).val, (i 2).isLt⟩ k) * w (ix4 (sel ⟨(i 0).val, (i 0).isLt⟩) 1 ⟨(i 2).val, (i 2).isLt⟩ k))
  else
    0 + ∑ k : Fin 8, (x (ix4 ⟨(i 0).val, (i 0).isLt⟩ 1 ⟨(i 2).val, (i 2).isLt⟩ k) * w (ix4 (sel ⟨(i 0).val, (i 0).isLt⟩) 0 ⟨(i 2).val, (i 2).isLt⟩ k)
      - x (ix4 ⟨(i 0).val, (i 0).isLt⟩ 0 ⟨(i 2).val, (i 2).isLt⟩ k) * w (ix4 (sel ⟨(i 0).val, (i 0).isLt⟩) 1 ⟨(i 2).val, (i 2).isLt⟩ k))

/-- The beam of frame n: its id word read unsigned, kept inside the 24 beams. -/
def selOf (b : (⟨1, ![16384]⟩ : Shape).Idx → BitVec 32) (n : Fin 16384) : Fin 24 :=
  ⟨min (b (ix1 n)).toNat 23, by omega⟩

/-- For an id below 24 it is the id. -/
theorem selOf_val (b : (⟨1, ![16384]⟩ : Shape).Idx → BitVec 32) (n : Fin 16384) (h : (b (ix1 n)).toNat < 24) :
    selOf b n = ⟨(b (ix1 n)).toNat, h⟩ :=
  Fin.ext (by show min (b (ix1 n)).toNat 23 = (b (ix1 n)).toNat; exact Nat.min_eq_left (by omega))

section Bridge

variable (X : SXm.Idx → EReal) (OH : SOH.Idx → EReal) (WHI WLO : SWm.Idx → EReal)
  (x : SX.Idx → EReal) (w : SW.Idx → EReal) (sel : Fin 16384 → Fin 24)
  (hX : ∀ (n : Fin 16384) (r : Fin 2) (ch : Fin 8) (f : Fin 257) (j : Fin 4112), j.val = r.val * 2056 + ch.val * 257 + f.val →
    X (ix2 n j) = x (ix4 n r f ch))
  (hWHI : ∀ (b : Fin 24) (r : Fin 2) (ch : Fin 8) (f : Fin 257) (j : Fin 4112), j.val = r.val * 2056 + ch.val * 257 + f.val →
    WHI (ix2 b j) = w (ix4 b r f ch))
  (hWLO : ∀ (b : Fin 24) (r : Fin 2) (ch : Fin 8) (f : Fin 257) (j : Fin 4112), j.val = r.val * 2056 + ch.val * 257 + f.val →
    WLO (ix2 b j) = w (ix4 b r f ch) - w (ix4 b r f ch))
  (hOH : ∀ (n : Fin 16384) (k : Fin 24), OH (ix2 n k) = if k = sel n then 1 else 0)
  (hw : ∀ i, ∃ r : ℝ, w i = (r : EReal))

include hWHI hWLO hOH hw in
/-- The selected filter row is the beam's filter: the one-hot product picks row sel n of each half, and the halves add back to the bank's
    entry because that entry is a real. -/
theorem wsel_eq (n : Fin 16384) (r : Fin 2) (ch : Fin 8) (f : Fin 257) (j : Fin 4112) (hj : j.val = r.val * 2056 + ch.val * 257 + f.val) :
    wsel OH WHI WLO n j = w (ix4 (sel n) r f ch) := by
  unfold wsel
  rw [sum_indicator (fun k => OH (ix2 n k)) (fun k => WHI (ix2 k j)) (sel n) (hOH n),
    sum_indicator (fun k => OH (ix2 n k)) (fun k => WLO (ix2 k j)) (sel n) (hOH n),
    hWHI _ r ch f j hj, hWLO _ r ch f j hj, sub_self_of_real _ (hw _), add_zero]

include hX hWHI hWLO hOH hw in
/-- The merged result, at the column of (part ri, bin f), is the closed form at (n, ri, f, 0). -/
theorem merged_eq_beamSum (n : Fin 16384) (ri : Fin 2) (f : Fin 257) (j : Fin 514) (hj : j.val = ri.val * 257 + f.val) :
    merged X OH WHI WLO (ix2 n j) = beamSum x w sel (ix4 n ri f 0) := by
  have hf := f.isLt
  match ri, hj with
  | ⟨0, _⟩, hj =>
    have hlt : j.val < 257 := by have : j.val = 0 * 257 + f.val := hj; omega
    have hjf : (⟨j.val, hlt⟩ : Fin 257) = f := Fin.ext (by have : j.val = 0 * 257 + f.val := hj; show j.val = f.val; omega)
    unfold merged beamSum
    rw [dif_pos (show ((ix2 n j : SOm.Idx) 1).val < 257 from hlt), if_pos (show ((ix4 n (⟨0, by decide⟩ : Fin 2) f (0 : Fin 1) : SO.Idx) 1).val = 0 from rfl)]
    rw [reAt_eq_sum]
    refine congrArg (0 + ·) (Finset.sum_congr rfl fun c _ => ?_)
    show X (ix2 n (colR c ⟨j.val, hlt⟩)) * wsel OH WHI WLO n (colR c ⟨j.val, hlt⟩)
        + X (ix2 n (colI c ⟨j.val, hlt⟩)) * wsel OH WHI WLO n (colI c ⟨j.val, hlt⟩)
      = x (ix4 n 0 f c) * w (ix4 (sel n) 0 f c) + x (ix4 n 1 f c) * w (ix4 (sel n) 1 f c)
    rw [hjf]
    rw [hX n 0 c f (colR c f) (by show c.val * 257 + f.val = 0 * 2056 + c.val * 257 + f.val; omega),
      hX n 1 c f (colI c f) (by show 2056 + c.val * 257 + f.val = 1 * 2056 + c.val * 257 + f.val; omega),
      wsel_eq OH WHI WLO w sel hWHI hWLO hOH hw n 0 c f (colR c f) (by show c.val * 257 + f.val = 0 * 2056 + c.val * 257 + f.val; omega),
      wsel_eq OH WHI WLO w sel hWHI hWLO hOH hw n 1 c f (colI c f) (by show 2056 + c.val * 257 + f.val = 1 * 2056 + c.val * 257 + f.val; omega)]
  | ⟨1, _⟩, hj =>
    have hge : ¬ j.val < 257 := by have : j.val = 1 * 257 + f.val := hj; omega
    have hjf : (⟨j.val - 257, by have h1 := j.isLt; omega⟩ : Fin 257) = f := Fin.ext (by have : j.val = 1 * 257 + f.val := hj; show j.val - 257 = f.val; omega)
    unfold merged beamSum
    rw [dif_neg (show ¬ ((ix2 n j : SOm.Idx) 1).val < 257 from hge), if_neg (show ¬ ((ix4 n (⟨1, by decide⟩ : Fin 2) f (0 : Fin 1) : SO.Idx) 1).val = 0 from Nat.one_ne_zero)]
    rw [imAt_eq_sum]
    refine congrArg (0 + ·) (Finset.sum_congr rfl fun c _ => ?_)
    show X (ix2 n (colI c ⟨j.val - 257, _⟩)) * wsel OH WHI WLO n (colR c ⟨j.val - 257, _⟩)
        - X (ix2 n (colR c ⟨j.val - 257, _⟩)) * wsel OH WHI WLO n (colI c ⟨j.val - 257, _⟩)
      = x (ix4 n 1 f c) * w (ix4 (sel n) 0 f c) - x (ix4 n 0 f c) * w (ix4 (sel n) 1 f c)
    rw [hjf]
    rw [hX n 0 c f (colR c f) (by show c.val * 257 + f.val = 0 * 2056 + c.val * 257 + f.val; omega),
      hX n 1 c f (colI c f) (by show 2056 + c.val * 257 + f.val = 1 * 2056 + c.val * 257 + f.val; omega),
      wsel_eq OH WHI WLO w sel hWHI hWLO hOH hw n 0 c f (colR c f) (by show c.val * 257 + f.val = 0 * 2056 + c.val * 257 + f.val; omega),
      wsel_eq OH WHI WLO w sel hWHI hWLO hOH hw n 1 c f (colI c f) (by show 2056 + c.val * 257 + f.val = 1 * 2056 + c.val * 257 + f.val; omega)]

end Bridge

end Cert.BeamSpec

end
-- ==== Proof.Body.lean ====
import proofs.«424849_j89653147336805_3_alg».proof.Proof.Gen.KernelIdeal.Frame
import proofs.«424849_j89653147336805_3_alg».proof.Proof.Spec
import Idealize.ShloMosaic.Lib.Pipeline.Value
import Idealize.ShloMosaic.Lib.Tactic
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.BeamSpec

/-! ## Slabs of a block

The body reads its x block and its scratch through sixteen slabs of 257 columns each: channel c's real slab starts at column 257·c, its
imaginary slab at 2056 + 257·c. -/

theorem slab_inb {o : Nat} (inb : ∀ a, (![0, o] : Fin 2 → Nat) a + S256x257.size a ≤ S256x4112.size a) : o + 257 ≤ 4112 := inb 1

theorem hz : (![0, 0] : Fin 2 → Nat) = fun _ => 0 := funext fun a => by fin_cases a <;> rfl

/-- The index a 257-column slab of a [256, 4112] block reads at (p, q): (p, o + q). -/
theorem slab_idx (o : Nat) (inb : ∀ a, (![0, o] : Fin 2 → Nat) a + S256x257.size a ≤ S256x4112.size a) (p : Fin 256) (q : Fin 257) :
    (Rect.unit (s := S256x4112) ![0, o] S256x257.size inb).idx (ix2 p q) = ix2 p (cl o (slab_inb inb) q) := by
  funext a
  apply Fin.ext
  match a with
  | ⟨0, _⟩ => show 0 + 1 * p.val = p.val; omega
  | ⟨1, _⟩ => show o + 1 * q.val = o + q.val; omega

/-- A load from a whole staging buffer that holds X reads X through the load's rectangle. -/
theorem readAt_ld {S : Shape} {e : EltTy} (M : Memref sig .tc .vmem S e) (hM : M.IsWhole) (X : S.Idx → Elt Ideal e) (r : Rect S) :
    View.readAt (Elt Ideal) M.view r.toLoadRect (hM.unread X) = View.ld (Val := Elt Ideal) X r := by
  rw [View.readAt_eq_ld, hM.read_unread]

/-- A load from a buffer after ONE store that covers it whole with the payload P reads P through the load's rectangle. -/
theorem readCov_ld {S : Shape} {e : EltTy} (M : Memref sig .tc .vmem S e) (P : S.Idx → Elt Ideal e)
    {off : Fin S.rank → Nat} (h0 : off = fun _ => 0) (inb0 : ∀ a, off a + S.size a ≤ S.size a) (r : Rect S) :
    M.view.readCov [(⟨Rect.unit (s := S) off S.size inb0, P⟩ : View.Piece (Elt Ideal) S e)] r.toLoadRect
      = View.ld (Val := Elt Ideal) P r := by
  rw [View.readCov_eq_canon_ld _ _ _ (fun y => ⟨_, List.mem_singleton_self _, View.mem_set_unit_zero h0 inb0 y⟩),
    View.canon_unit_zero h0]

/-! ## What a grid point leaves in the output block

The body stores the selected filter w = onehot · w_hi + onehot · w_lo to its scratch, then folds the eight channels, first to
last, into the real half acc + xr·wr + xi·wi and the imaginary half acc + xi·wr − xr·wi of the output row, and stores
the real half at columns 0 … 256 and the imaginary half at columns 257 … 513. -/

/-- The index a 257-column slab that starts at column o reads at (p, q), as the slab's rectangle spells it. -/
def sidx (o : Nat) (inb : ∀ a, (![0, o] : Fin 2 → Nat) a + S256x257.size a ≤ S256x4112.size a) (p : Fin 256) (q : Fin 257) : S256x4112.Idx :=
  (Rect.unit (s := S256x4112) ![0, o] S256x257.size inb).idx (ix2 p q)

theorem sidx_eq (o : Nat) (inb : ∀ a, (![0, o] : Fin 2 → Nat) a + S256x257.size a ≤ S256x4112.size a) (p : Fin 256) (q : Fin 257) :
    sidx o inb p q = ix2 p (cl o (slab_inb inb) q) := slab_idx o inb p q

/-- The real half of row p at bin q: the fold over the channels, first to last, from zero, of xr·wr + xi·wi, X the x block and W the
    selected filter (channel c's real slab starts at column 257·c, its imaginary slab at 2056 + 257·c). -/
def reL (X W : S256x4112.Idx → EReal) (p : Fin 256) (q : Fin 257) : EReal :=
  0 + X (sidx 0 (by decide) p q) * W (sidx 0 (by decide) p q) + X (sidx 2056 (by decide) p q) * W (sidx 2056 (by decide) p q) + X (sidx 257 (by decide) p q) * W (sidx 257 (by decide) p q) + X (sidx 2313 (by decide) p q) * W (sidx 2313 (by decide) p q) + X (sidx 514 (by decide) p q) * W (sidx 514 (by decide) p q) + X (sidx 2570 (by decide) p q) * W (sidx 2570 (by decide) p q) + X (sidx 771 (by decide) p q) * W (sidx 771 (by decide) p q) + X (sidx 2827 (by decide) p q) * W (sidx 2827 (by decide) p q) + X (sidx 1028 (by decide) p q) * W (sidx 1028 (by decide) p q) + X (sidx 3084 (by decide) p q) * W (sidx 3084 (by decide) p q) + X (sidx 1285 (by decide) p q) * W (sidx 1285 (by decide) p q) + X (sidx 3341 (by decide) p q) * W (sidx 3341 (by decide) p q) + X (sidx 1542 (by decide) p q) * W (sidx 1542 (by decide) p q) + X (sidx 3598 (by decide) p q) * W (sidx 3598 (by decide) p q) + X (sidx 1799 (by decide) p q) * W (sidx 1799 (by decide) p q) + X (sidx 3855 (by decide) p q) * W (sidx 3855 (by decide) p q)

/-- The imaginary half: the fold of xi·wr − xr·wi. -/
def imL (X W : S256x4112.Idx → EReal) (p : Fin 256) (q : Fin 257) : EReal :=
  0 + X (sidx 2056 (by decide) p q) * W (sidx 0 (by decide) p q) - X (sidx 0 (by decide) p q) * W (sidx 2056 (by decide) p q) + X (sidx 2313 (by decide) p q) * W (sidx 257 (by decide) p q) - X (sidx 257 (by decide) p q) * W (sidx 2313 (by decide) p q) + X (sidx 2570 (by decide) p q) * W (sidx 514 (by decide) p q) - X (sidx 514 (by decide) p q) * W (sidx 2570 (by decide) p q) + X (sidx 2827 (by decide) p q) * W (sidx 771 (by decide) p q) - X (sidx 771 (by decide) p q) * W (sidx 2827 (by decide) p q) + X (sidx 3084 (by decide) p q) * W (sidx 1028 (by decide) p q) - X (sidx 1028 (by decide) p q) * W (sidx 3084 (by decide) p q) + X (sidx 3341 (by decide) p q) * W (sidx 1285 (by decide) p q) - X (sidx 1285 (by decide) p q) * W (sidx 3341 (by decide) p q) + X (sidx 3598 (by decide) p q) * W (sidx 1542 (by decide) p q) - X (sidx 1542 (by decide) p q) * W (sidx 3598 (by decide) p q) + X (sidx 3855 (by decide) p q) * W (sidx 1799 (by decide) p q) - X (sidx 1799 (by decide) p q) * W (sidx 3855 (by decide) p q)

set_option maxHeartbeats 1000000 in
/-- An imaginary column 257 + q of row p of the block a point leaves. -/
theorem out_im (c : Dev nD) (i : grid0.Coords) (arg1 : Memref sig .tc .vmem S256x24 .f32) (harg1 : arg1.IsWhole) (arg2 : Memref sig .tc .vmem S256x4112 .f32) (harg2 : arg2.IsWhole) (arg3 : Memref sig .tc .vmem S24x4112 .bf16) (harg3 : arg3.IsWhole) (arg4 : Memref sig .tc .vmem S24x4112 .bf16) (harg4 : arg4.IsWhole) (arg5 : Memref sig .tc .vmem S256x514 .f32) (harg5 : arg5.IsWhole) (arg6 : Memref sig .tc .vmem S256x4112 .f32) (harg6 : arg6.IsWhole)
    (x0 : Vec Ideal S256x24 .f32) (x1 : Vec Ideal S256x4112 .f32) (x2 : Vec Ideal S24x4112 .bf16) (x3 : Vec Ideal S24x4112 .bf16) (p : Fin 256) (q : Fin 257) :
    out0_A_4 (F := Ideal) c i arg1 harg1 arg2 harg2 arg3 harg3 arg4 harg4 arg5 harg5 arg6 harg6 x0 x1 x2 x3 (ix2 p ⟨257 + q.val, by have := q.isLt; omega⟩)
      = imL x1 (k0_pay5 (F := Ideal) x0 x2 x3) p q := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  simp only [readAt_ld, readCov_ld (S := S256x4112) (e := .f32) _ _ hz, View.ld_unit_zero (S := S256x24) hz, View.ld_unit_zero (S := S24x4112) hz]
  have hy : (ix2 p ⟨257 + q.val, by have := q.isLt; omega⟩ : S256x514.Idx)
      = (Rect.unit (s := S256x514) ![0, 257] ![256, 257] inb_S256x514_S256x257_0_257).emb (ix2 p q) := by
    funext a
    apply Fin.ext
    match a with
    | ⟨0, _⟩ => show p.val = 0 + 1 * p.val; omega
    | ⟨1, _⟩ => show 257 + q.val = 257 + 1 * q.val; omega
  rw [hy, View.canon_cons_emb]
  simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, shapeCast_self, mulf_apply, addf_apply, subf_apply, broadcast_apply,
    Ideal.ofBits_def, Ideal.ofBits_zero_f32, imL, reL, sidx, View.ld]

set_option maxHeartbeats 1000000 in
/-- A real column q of row p. -/
theorem out_re (c : Dev nD) (i : grid0.Coords) (arg1 : Memref sig .tc .vmem S256x24 .f32) (harg1 : arg1.IsWhole) (arg2 : Memref sig .tc .vmem S256x4112 .f32) (harg2 : arg2.IsWhole) (arg3 : Memref sig .tc .vmem S24x4112 .bf16) (harg3 : arg3.IsWhole) (arg4 : Memref sig .tc .vmem S24x4112 .bf16) (harg4 : arg4.IsWhole) (arg5 : Memref sig .tc .vmem S256x514 .f32) (harg5 : arg5.IsWhole) (arg6 : Memref sig .tc .vmem S256x4112 .f32) (harg6 : arg6.IsWhole)
    (x0 : Vec Ideal S256x24 .f32) (x1 : Vec Ideal S256x4112 .f32) (x2 : Vec Ideal S24x4112 .bf16) (x3 : Vec Ideal S24x4112 .bf16) (p : Fin 256) (q : Fin 257) :
    out0_A_4 (F := Ideal) c i arg1 harg1 arg2 harg2 arg3 harg3 arg4 harg4 arg5 harg5 arg6 harg6 x0 x1 x2 x3 (ix2 p ⟨q.val, by have := q.isLt; omega⟩)
      = reL x1 (k0_pay5 (F := Ideal) x0 x2 x3) p q := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  simp only [readAt_ld, readCov_ld (S := S256x4112) (e := .f32) _ _ hz, View.ld_unit_zero (S := S256x24) hz, View.ld_unit_zero (S := S24x4112) hz]
  have hy : (ix2 p ⟨q.val, by have := q.isLt; omega⟩ : S256x514.Idx)
      = (Rect.unit (s := S256x514) ![0, 0] ![256, 257] inb_S256x514_S256x257_0_0).emb (ix2 p q) := by
    funext a
    apply Fin.ext
    match a with
    | ⟨0, _⟩ => show p.val = 0 + 1 * p.val; omega
    | ⟨1, _⟩ => show q.val = 0 + 1 * q.val; omega
  rw [View.canon_cons_of_not_mem]
  · rw [hy, View.canon_cons_emb]
    simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, shapeCast_self, mulf_apply, addf_apply, subf_apply, broadcast_apply,
      Ideal.ofBits_def, Ideal.ofBits_zero_f32, imL, reL, sidx, View.ld]
  · dsimp only
    rw [Rect.mem_set_unit]
    intro h
    have h1 := (h 1).1
    have hq := q.isLt
    change 257 ≤ q.val at h1
    omega

/-- The two folds over the slab indices are the folds over the columns (a slab's index at (p, q) is (p, o + q)). -/
theorem reL_eq (X W : S256x4112.Idx → EReal) (p : Fin 256) (q : Fin 257) :
    reL X W p q = reAt (fun j => X (ix2 p j)) (fun j => W (ix2 p j)) q := by
  unfold reL reAt
  simp only [sidx_eq]

theorem imL_eq (X W : S256x4112.Idx → EReal) (p : Fin 256) (q : Fin 257) :
    imL X W p q = imAt (fun j => X (ix2 p j)) (fun j => W (ix2 p j)) q := by
  unfold imL imAt
  simp only [sidx_eq]

end Cert.KernelIdeal.Body

end
-- ==== Proof.HostPre.lean ====
import proofs.«424849_j89653147336805_3_alg».proof.Proof.Gen.KernelIdeal.Frame
import Idealize.ShloMosaic.Lib.Pipeline.Value
import Idealize.ShloMosaic.Lib.StableHlo.Run
import Idealize.ShloMosaic.Lib.StableHlo.Predicate
import Idealize.ShloMosaic.Lib.Tactic
import Idealize.ShloMosaic.Lib.ValueIdx

set_option maxRecDepth 16384

noncomputable section

open Idealize.ShloMosaic Idealize.ShloMosaic.TcCoe Idealize.SL.Sem Idealize.ShloMosaic.ValueIdx

namespace Cert.KernelIdeal.HostPre

open Cert.KernelIdeal Cert.KernelIdeal.Gen Idealize.ShloMosaic.StableHlo

/-! ## The channel-major merge

An array [N, 2, 257, 8] (row, real/imaginary, bin, channel) is transposed to [N, 2, 8, 257] and flattened to [N, 4112]:
column r·2056 + ch·257 + f of row n holds entry (n, r, f, ch). -/

theorem merged_apply {α : Type} {N : Nat} (x : (⟨4, ![N, 2, 257, 8]⟩ : Shape).Idx → α)
    (hT : (⟨4, ![N, 2, 257, 8]⟩ : Shape).Transposes [0, 1, 3, 2] ⟨4, ![N, 2, 8, 257]⟩)
    (hC : (⟨4, ![N, 2, 8, 257]⟩ : Shape).ShapeCasts ⟨2, ![N, 4112]⟩)
    (n : Fin N) (r : Fin 2) (ch : Fin 8) (f : Fin 257) (j : Fin 4112) (hj : j.val = r.val * 2056 + ch.val * 257 + f.val) :
    shapeCast ⟨2, ![N, 4112]⟩ (transpose ⟨4, ![N, 2, 8, 257]⟩ [0, 1, 3, 2] x hT) hC (ix2 n j) = x (ix4 n r f ch) := by
  refine (shapeCast_apply _ hC (ix2 n j) (ix4 n r ch f) ?_).trans ?_
  · rw [Shape.rowMajor_val_four, Shape.rowMajor_val_two]
    show ((n.val * 2 + r.val) * 8 + ch.val) * 257 + f.val = n.val * 4112 + j.val
    omega
  · exact transpose_apply _ x hT (ix4 n r ch f) (ix4 n r f ch) (fun b => by
      match b with
      | ⟨0, _⟩ => rfl
      | ⟨1, _⟩ => rfl
      | ⟨2, _⟩ => rfl
      | ⟨3, _⟩ => rfl)

variable (m : (ℓ : Loc nD τ sig) → Buf (Elt Ideal) ℓ)

/-- The three arguments as launched, at their literal types. -/
abbrev xin (c : Dev nD) : S16384x2x257x8.Idx → EReal := m ((c : Thread nD τ).loc main_arg0)
abbrev win (c : Dev nD) : S24x2x257x8.Idx → EReal := m ((c : Thread nD τ).loc main_arg1)
abbrev bid (c : Dev nD) : S16384.Idx → BitVec 32 := m ((c : Thread nD τ).loc main_arg2)

/-- The merged x, as the region finds it. -/
theorem xflat_eq (c : Dev nD) : (V m c main_v1 : S16384x4112.Idx → EReal)
    = shapeCast S16384x4112 (transpose S16384x2x8x257 [0, 1, 3, 2] (xin m c) (by decide)) (by decide) := by
  dsimp only [Gen.V, Gen.V0]
  simp only [Gen.hostOps0, Gen.hostOps0_1, Gen.hostOps0_2, List.flatten_cons, List.flatten_nil, List.append_nil, List.cons_append, List.nil_append]
  after_results
  rfl

theorem xflat_apply (c : Dev nD) (n : Fin 16384) (r : Fin 2) (ch : Fin 8) (f : Fin 257) (j : Fin 4112)
    (hj : j.val = r.val * 2056 + ch.val * 257 + f.val) :
    (V m c main_v1 : S16384x4112.Idx → EReal) (ix2 n j) = xin m c (ix4 n r f ch) := by
  rw [xflat_eq]; exact merged_apply _ _ _ n r ch f j hj

/-- The merged filter bank in its leading half of the split: a change of format, the identity over the extended reals. -/
theorem whi_eq (c : Dev nD) : (V m c main_v4 : S24x4112.Idx → EReal)
    = truncf (F := Ideal) .bf16 (shapeCast S24x4112 (transpose S24x2x8x257 [0, 1, 3, 2] (win m c) (by decide)) (by decide) : FVec Ideal S24x4112 .f32) (by decide) := by
  dsimp only [Gen.V, Gen.V0]
  simp only [Gen.hostOps0, Gen.hostOps0_1, Gen.hostOps0_2, List.flatten_cons, List.flatten_nil, List.append_nil, List.cons_append, List.nil_append]
  after_results
  rfl

theorem whi_apply (c : Dev nD) (b : Fin 24) (r : Fin 2) (ch : Fin 8) (f : Fin 257) (j : Fin 4112)
    (hj : j.val = r.val * 2056 + ch.val * 257 + f.val) :
    (V m c main_v4 : S24x4112.Idx → EReal) (ix2 b j) = win m c (ix4 b r f ch) := by
  rw [whi_eq]; exact merged_apply _ _ _ b r ch f j hj

/-- The trailing half of the split: the merged bank minus its own change of format and back. -/
theorem wlo_eq (c : Dev nD) : (V m c main_v7 : S24x4112.Idx → EReal)
    = truncf (F := Ideal) .bf16 (subf (shapeCast S24x4112 (transpose S24x2x8x257 [0, 1, 3, 2] (win m c) (by decide)) (by decide) : FVec Ideal S24x4112 .f32)
        (extf .f32 (truncf (F := Ideal) .bf16 (shapeCast S24x4112 (transpose S24x2x8x257 [0, 1, 3, 2] (win m c) (by decide)) (by decide) : FVec Ideal S24x4112 .f32) (by decide)) (by decide))) (by decide) := by
  dsimp only [Gen.V, Gen.V0]
  simp only [Gen.hostOps0, Gen.hostOps0_1, Gen.hostOps0_2, List.flatten_cons, List.flatten_nil, List.append_nil, List.cons_append, List.nil_append]
  after_results
  rfl

theorem wlo_apply (c : Dev nD) (b : Fin 24) (r : Fin 2) (ch : Fin 8) (f : Fin 257) (j : Fin 4112)
    (hj : j.val = r.val * 2056 + ch.val * 257 + f.val) :
    (V m c main_v7 : S24x4112.Idx → EReal) (ix2 b j) = win m c (ix4 b r f ch) - win m c (ix4 b r f ch) := by
  rw [wlo_eq]
  show shapeCast S24x4112 (transpose S24x2x8x257 [0, 1, 3, 2] (win m c) _) _ (ix2 b j)
    - shapeCast S24x4112 (transpose S24x2x8x257 [0, 1, 3, 2] (win m c) _) _ (ix2 b j) = _
  rw [merged_apply _ _ _ b r ch f j hj]

/-! ## The one-hot rows

Row n of the one-hot is 1 at column clip(beam_id n) and 0 elsewhere, the clip to [0, 23] being min(23, max(0, ·)) on signed words. -/

/-- The clip of a word to [0, 23], as the program spells it. -/
def clipw (w : BitVec 32) : BitVec 32 := IntOp.minsi 23#32 (IntOp.maxsi 0#32 w)

/-- A word already in [0, 24) is its own clip. -/
theorem clipw_of_lt (w : BitVec 32) (hw : w.toNat < 24) : clipw w = w := by
  have hti : w.toInt = w.toNat := Predicate.toInt_eq_toNat_of_lt (by omega)
  have h0 : (0#32 : BitVec 32).toInt = 0 := by decide
  have h23 : (23#32 : BitVec 32).toInt = 23 := by decide
  have hmax : IntOp.maxsi 0#32 w = w := by
    unfold IntOp.maxsi
    rw [if_neg]
    simp only [BitVec.slt, hti, h0, decide_eq_true_eq]
    omega
  unfold clipw
  rw [hmax]
  unfold IntOp.minsi
  rw [if_neg]
  simp only [BitVec.slt, hti, h23, decide_eq_true_eq]
  omega

theorem onehot_eq (c : Dev nD) : (V m c main_v9 : S16384x24.Idx → EReal)
    = uitofp (F := Ideal) .f32 (cmpi .eq
        (broadcastInDim S16384x24 ![0, 1] (by decide) (broadcastInDim S16384x1 ![0] (by decide)
          (minsi (broadcastInDim S16384 ![] (by decide) (constantI S_ 32 23#32))
            (maxsi (broadcastInDim S16384 ![] (by decide) (constantI S_ 32 0#32)) (bid m c)))))
        (broadcastInDim S16384x24 ![0, 1] (by decide) (iotaInDim S1x24 32 1))) := by
  dsimp only [Gen.V, Gen.V0]
  simp only [Gen.hostOps0, Gen.hostOps0_1, Gen.hostOps0_2, List.flatten_cons, List.flatten_nil, List.append_nil, List.cons_append, List.nil_append]
  after_results
  simp only [cast_eq, id]

/-- A widened word comparison, read at an index. -/
theorem uitofp_cmpi_apply {s : Shape} (A B : IVec s 32) (i : s.Idx) :
    uitofp (F := Ideal) .f32 (cmpi .eq A B) i = (((IntOp.cmpi .eq (A i) (B i)).toNat : ℝ) : EReal) := rfl

theorem onehot_apply (c : Dev nD) (n : Fin 16384) (k : Fin 24) :
    (V m c main_v9 : S16384x24.Idx → EReal) (ix2 n k)
      = (((IntOp.cmpi .eq (clipw (bid m c (Shape.Idx.ofFin n))) (BitVec.ofNat 32 k.val)).toNat : ℝ) : EReal) := by
  rw [onehot_eq]
  have e : (ix2 n k : S16384x24.Idx) = Predicate.ij n k := by
    funext d; match d with | ⟨0, _⟩ => rfl | ⟨1, _⟩ => rfl
  rw [e, uitofp_cmpi_apply, Predicate.bcast_rows, Predicate.bcast_of_row]
  rfl

end Cert.KernelIdeal.HostPre

end
-- ==== Proof.LibPlainMatmul.lean ====
/-
  A plain matrix product read at an index.

  For the dimension numbers `[1] x [0]` with no batch axes (`DotDims.plain M K N`: rows by contraction times contraction by
  columns), a `tpu.matmul` into the zero accumulator, read on the extended reals at the output index `(r, j)`, is
  `∑ k, x (r, k) * w (k, j)`, for any extents and any operand formats. A printed dot record with the same six axis lists is
  that record (its well-formedness field is a proof), so the lemma serves every such record through `rfl`.
-/
import Idealize.ShloMosaic.PureOps.Ideal.Laws
import Idealize.ShloMosaic.Lib.ValueIdx

noncomputable section

namespace Idealize.ShloMosaic.PlainMatmul

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- A plain product into the zero accumulator, at `(r, j)`: the sum over the contraction of the row of the left operand
    against the column of the right one. -/
theorem matmul_zero_apply {φ₁ φ₂ : FTy} (x : FVec Ideal ⟨2, ![M, K]⟩ φ₁) (w : FVec Ideal ⟨2, ![K, N]⟩ φ₂)
    (r : Fin M) (j : Fin N) :
    FloatOps.matmul (DotDims.plain M K N) none x w (constant ⟨2, ![M, N]⟩ .f32 0x00000000#32) (ix2 r j)
      = ∑ k : Fin K, x (ix2 r k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact lhs_row M K N _ _
      | ⟨1, _⟩ => exact (lhs_col M K N _ _).trans hk)
  have er : (DotDims.plain M K N).rhsIdx (ix2 r j) ((contrEquiv1 (DotDims.plain M K N) K rfl rfl).symm k) = ix2 k j :=
    funext fun a => Fin.ext (by
      match a with
      | ⟨0, _⟩ => exact (rhs_row M K N _ _).trans hk
      | ⟨1, _⟩ => exact rhs_col M K N _ _)
  rw [el, er]

end Idealize.ShloMosaic.PlainMatmul

end
-- ==== Proof.Select.lean ====
import proofs.«424849_j89653147336805_3_alg».proof.Proof.Gen.KernelIdeal.Skeleton
import proofs.«424849_j89653147336805_3_alg».proof.Proof.LibPlainMatmul
import Idealize.ShloMosaic.Lib.Pipeline.Value
import Idealize.ShloMosaic.Lib.ValueIdx
import Idealize.ShloMosaic.Lib.Affine
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Select

open Cert.KernelIdeal Cert.KernelIdeal.Gen

/-- The selected filter the body stores to its scratch, at row r and column j: the one-hot row against column j of the leading
    half of the split bank, plus the same against the trailing half (a change of format is the identity here). -/
theorem pay5_apply (oh : Vec Ideal S256x24 .f32) (whi wlo : Vec Ideal S24x4112 .bf16) (r : Fin 256) (j : Fin 4112) :
    k0_pay5 (F := Ideal) oh whi wlo (ix2 r j)
      = (∑ k : Fin 24, oh (ix2 r k) * whi (ix2 k j)) + ∑ k : Fin 24, oh (ix2 r k) * wlo (ix2 k j) := by
  unfold k0_pay5
  simp only [shapeCast_self]
  rw [addf_apply]
  exact congrArg₂ (· + ·)
    (PlainMatmul.matmul_zero_apply 256 24 4112 (truncf (F := Ideal) .bf16 oh (by decide)) whi r j)
    (PlainMatmul.matmul_zero_apply 256 24 4112 (truncf (F := Ideal) .bf16 oh (by decide)) wlo r j)

/-- A word below 24 compared for equality with column k, widened: the indicator of k being that word. -/
theorem indicator_of_lt (w : BitVec 32) (hw : w.toNat < 24) (k : Fin 24) :
    (((IntOp.cmpi .eq w (BitVec.ofNat 32 k.val)).toNat : ℝ) : EReal) = if k = ⟨w.toNat, hw⟩ then 1 else 0 := by
  by_cases h : k = ⟨w.toNat, hw⟩
  · subst h
    rw [if_pos rfl]
    have e : IntOp.cmpi .eq w (BitVec.ofNat 32 w.toNat) = 1#1 := IntOp.cmpi_eq.2 (BitVec.eq_of_toNat_eq (by rw [BitVec.toNat_ofNat, Nat.mod_eq_of_lt w.isLt]))
    rw [e]; simp
  · rw [if_neg h]
    have hne : ¬ IntOp.cmpi .eq w (BitVec.ofNat 32 k.val) = 1#1 := fun e => h (Fin.ext (by
      have := IntOp.cmpi_eq.1 e
      have hk := k.isLt
      show k.val = w.toNat
      rw [this, BitVec.toNat_ofNat]
      omega))
    rw [eq_zero_of_ne_one hne]; simp

end Cert.KernelIdeal.Select

end
-- ==== Proof.Blocks.lean ====
import proofs.«424849_j89653147336805_3_alg».proof.Proof.Body
import proofs.«424849_j89653147336805_3_alg».proof.Proof.HostPre
import proofs.«424849_j89653147336805_3_alg».proof.Proof.Select
import proofs.«424849_j89653147336805_3_alg».proof.Proof.Spec
import Idealize.ShloMosaic.Lib.Pipeline.Value
import Idealize.ShloMosaic.Lib.Tactic
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.BeamSpec

variable (m : (ℓ : Loc nD τ sig) → Buf (Elt Ideal) ℓ)

/-! ## From the blocks to the array

Grid point t works on rows 256·t … 256·t + 255: it reads those rows of the one-hot and of the merged x, the whole split filter bank, and
writes those rows of the merged result. So the result array is ONE function of the arrays the region finds: row n, column j of it is the
real or imaginary fold of row n of x against row n of the selected filter. -/

/-- The arrays the region finds, at their literal types. -/
abbrev OH (c : Dev nD) : S16384x24.Idx → EReal := V m c main_v9
abbrev XM (c : Dev nD) : S16384x4112.Idx → EReal := V m c main_v1
abbrev WHI (c : Dev nD) : S24x4112.Idx → EReal := V m c main_v4
abbrev WLO (c : Dev nD) : S24x4112.Idx → EReal := V m c main_v7

/-- The four input blocks at point t, at their literal types. -/
abbrev B0 (c : Dev nD) (t : Fin cfg0.N) : Vec Ideal S256x24 .f32 := iblk m c 0 t
abbrev B1 (c : Dev nD) (t : Fin cfg0.N) : Vec Ideal S256x4112 .f32 := iblk m c 1 t
abbrev B2 (c : Dev nD) (t : Fin cfg0.N) : Vec Ideal S24x4112 .bf16 := iblk m c 2 t
abbrev B3 (c : Dev nD) (t : Fin cfg0.N) : Vec Ideal S24x4112 .bf16 := iblk m c 3 t

/-- The merged result array, as a function of the arrays the region finds. -/
abbrev G (c : Dev nD) : S16384x514.Idx → EReal := merged (XM m c) (OH m c) (WHI m c) (WLO m c)

/-- The printed index maps, decided over the 64 points: the row windows sit at block t, the bank's windows and every column block at 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem ht64 (t : Fin cfg0.N) : t.val < 64 := lt_of_lt_of_eq t.isLt N_0

theorem b0_apply (c : Dev nD) (t : Fin cfg0.N) (p : Fin 256) (k : Fin 24) (n : Fin 16384) (hn : n.val = 256 * t.val + p.val) :
    B0 m c t (ix2 p k) = OH m c (ix2 n k) := by
  have hf := idx_facts t
  unfold B0 iblk
  rw [View.read_apply]
  show V m c main_v9 _ = V m c main_v9 _
  congr 1
  funext a
  apply Fin.ext
  match a with
  | ⟨0, _⟩ => show win0_0.index t (0 : Fin 2) * 256 + 1 * p.val = n.val; rw [hf.1, hn]; omega
  | ⟨1, _⟩ => show win0_0.index t (1 : Fin 2) * 24 + 1 * k.val = k.val; rw [hf.2.1]; omega

theorem b1_apply (c : Dev nD) (t : Fin cfg0.N) (p : Fin 256) (k : Fin 4112) (n : Fin 16384) (hn : n.val = 256 * t.val + p.val) :
    B1 m c t (ix2 p k) = XM m c (ix2 n k) := by
  have hf := idx_facts t
  unfold B1 iblk
  rw [View.read_apply]
  show V m c main_v1 _ = V m c main_v1 _
  congr 1
  funext a
  apply Fin.ext
  match a with
  | ⟨0, _⟩ => show win0_1.index t (0 : Fin 2) * 256 + 1 * p.val = n.val; rw [hf.2.2.1, hn]; omega
  | ⟨1, _⟩ => show win0_1.index t (1 : Fin 2) * 4112 + 1 * k.val = k.val; rw [hf.2.2.2.1]; omega

theorem b2_apply (c : Dev nD) (t : Fin cfg0.N) (p : Fin 24) (k : Fin 4112) :
    B2 m c t (ix2 p k) = WHI m c (ix2 p k) := by
  have hf := idx_facts t
  unfold B2 iblk
  rw [View.read_apply]
  show V m c main_v4 _ = V m c main_v4 _
  congr 1
  funext a
  apply Fin.ext
  match a with
  | ⟨0, _⟩ => show win0_2.index t (0 : Fin 2) * 24 + 1 * p.val = p.val; rw [hf.2.2.2.2.1]; omega
  | ⟨1, _⟩ => show win0_2.index t (1 : Fin 2) * 4112 + 1 * k.val = k.val; rw [hf.2.2.2.2.2.1]; omega

theorem b3_apply (c : Dev nD) (t : Fin cfg0.N) (p : Fin 24) (k : Fin 4112) :
    B3 m c t (ix2 p k) = WLO m c (ix2 p k) := by
  have hf := idx_facts t
  unfold B3 iblk
  rw [View.read_apply]
  show V m c main_v7 _ = V m c main_v7 _
  congr 1
  funext a
  apply Fin.ext
  match a with
  | ⟨0, _⟩ => show win0_3.index t (0 : Fin 2) * 24 + 1 * p.val = p.val; rw [hf.2.2.2.2.2.2.1]; omega
  | ⟨1, _⟩ => show win0_3.index t (1 : Fin 2) * 4112 + 1 * k.val = k.val; rw [hf.2.2.2.2.2.2.2.1]; omega

/-- Row p of the x block at point t is row n = 256·t + p of the merged x. -/
theorem xrow_eq (c : Dev nD) (t : Fin cfg0.N) (p : Fin 256) (n : Fin 16384) (hn : n.val = 256 * t.val + p.val) :
    (fun j : Fin 4112 => B1 m c t (ix2 p j)) = fun j => XM m c (ix2 n j) :=
  funext fun j => b1_apply m c t p j n hn

/-- Row p of the filter the body selects at point t is row n of the selected filter of the arrays. -/
theorem wrow_eq (c : Dev nD) (t : Fin cfg0.N) (p : Fin 256) (n : Fin 16384) (hn : n.val = 256 * t.val + p.val) :
    (fun j : Fin 4112 => k0_pay5 (F := Ideal) (B0 m c t) (B2 m c t) (B3 m c t) (ix2 p j)) = wsel (OH m c) (WHI m c) (WLO m c) n := by
  funext j
  refine (Select.pay5_apply (B0 m c t) (B2 m c t) (B3 m c t) p j).trans ?_
  unfold wsel
  refine congrArg₂ (· + ·) (Finset.sum_congr rfl fun k _ => ?_) (Finset.sum_congr rfl fun k _ => ?_)
  · rw [b0_apply m c t p k n hn, b2_apply m c t k j]
  · rw [b0_apply m c t p k n hn, b3_apply m c t k j]

/-- What point t leaves at a real column of row p of its block. -/
theorem point_re (c : Dev nD) (t : Fin cfg0.N) (p : Fin 256) (q : Fin 257) (n : Fin 16384) (hn : n.val = 256 * t.val + p.val) :
    outsAt0 m c t (ix2 p ⟨q.val, by have := q.isLt; omega⟩) = G m c (ix2 n ⟨q.val, by have := q.isLt; omega⟩) := by
  unfold outsAt0
  refine (Body.out_re c (grid0.coords t) (ms0_0 t) (hs0_0 t) (ms0_1 t) (hs0_1 t) (ms0_2 t) (hs0_2 t) (ms0_3 t) (hs0_3 t) (ms0_4 t) (hs0_4 t) scM0_0 (Memref.isWhole_whole _) (B0 m c t) (B1 m c t) (B2 m c t) (B3 m c t) p q).trans ?_
  rw [Body.reL_eq, xrow_eq m c t p n hn, wrow_eq m c t p n hn]
  unfold G merged
  rw [dif_pos (show ((ix2 n (⟨q.val, by have := q.isLt; omega⟩ : Fin 514) : SOm.Idx) 1).val < 257 from q.isLt)]

/-- What it leaves at an imaginary column. -/
theorem point_im (c : Dev nD) (t : Fin cfg0.N) (p : Fin 256) (q : Fin 257) (n : Fin 16384) (hn : n.val = 256 * t.val + p.val) :
    outsAt0 m c t (ix2 p ⟨257 + q.val, by have := q.isLt; omega⟩) = G m c (ix2 n ⟨257 + q.val, by have := q.isLt; omega⟩) := by
  unfold outsAt0
  refine (Body.out_im c (grid0.coords t) (ms0_0 t) (hs0_0 t) (ms0_1 t) (hs0_1 t) (ms0_2 t) (hs0_2 t) (ms0_3 t) (hs0_3 t) (ms0_4 t) (hs0_4 t) scM0_0 (Memref.isWhole_whole _) (B0 m c t) (B1 m c t) (B2 m c t) (B3 m c t) p q).trans ?_
  rw [Body.imL_eq, xrow_eq m c t p n hn, wrow_eq m c t p n hn]
  unfold G merged
  rw [dif_neg (show ¬ ((ix2 n (⟨257 + q.val, by have := q.isLt; omega⟩ : Fin 514) : SOm.Idx) 1).val < 257 from by
    show ¬ 257 + q.val < 257; omega)]
  have e : (⟨257 + q.val - 257, by have := q.isLt; omega⟩ : Fin 257) = q := Fin.ext (by show 257 + q.val - 257 = q.val; omega)
  show imAt _ _ q = imAt _ _ ⟨257 + q.val - 257, _⟩
  rw [e]

/-- WHAT POINT t WRITES BACK is block t of the merged result of the arrays the region finds. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  funext y
  have ht := ht64 t
  have hf := idx_facts t
  have he : ∀ (p : Fin 256) (j : Fin 514), ((cfg0.win 4).blk t).view.emb (ix2 p j)
      = ix2 (⟨256 * t.val + p.val, by have := p.isLt; omega⟩ : Fin 16384) j := fun p j => by
    funext a; apply Fin.ext
    match a with
    | ⟨0, _⟩ => show win0_4.index t (0 : Fin 2) * 256 + 1 * p.val = 256 * t.val + p.val; rw [hf.2.2.2.2.2.2.2.2.1]; omega
    | ⟨1, _⟩ => show win0_4.index t (1 : Fin 2) * 514 + 1 * j.val = j.val; rw [hf.2.2.2.2.2.2.2.2.2]; omega
  show outsAt0 m c t y = G m c (((cfg0.win 4).blk t).view.emb y)
  have hex : (∃ (p : Fin 256) (q : Fin 257), y = ix2 p ⟨q.val, by have := q.isLt; omega⟩)
      ∨ (∃ (p : Fin 256) (q : Fin 257), y = ix2 p ⟨257 + q.val, by have := q.isLt; omega⟩) := by
    have hp : (y 0).val < 256 := (y 0).isLt
    have hj : (y 1).val < 514 := (y 1).isLt
    by_cases hlt : (y 1).val < 257
    · exact Or.inl ⟨⟨(y 0).val, hp⟩, ⟨(y 1).val, hlt⟩, funext fun a => by
        match a with
        | ⟨0, _⟩ => rfl
        | ⟨1, _⟩ => rfl⟩
    · exact Or.inr ⟨⟨(y 0).val, hp⟩, ⟨(y 1).val - 257, by omega⟩, funext fun a => by
        match a with
        | ⟨0, _⟩ => rfl
        | ⟨1, _⟩ => exact Fin.ext (by show (y 1).val = 257 + ((y 1).val - 257); omega)⟩
  rcases hex with ⟨p, q, rfl⟩ | ⟨p, q, rfl⟩
  · rw [he]
    exact point_re m c t p q _ rfl
  · rw [he]
    exact point_im m c t p q _ rfl

/-- An index of the result array is in point t's block iff each coordinate is in the block's range on its axis. -/
theorem mem_blk (t : Fin cfg0.N) (i : S16384x514.Idx) :
    i ∈ ((cfg0.win 4).blk t).view.set ↔ ∀ a : Fin 2, win0_4.index t a * S256x514.size a ≤ (i a).val
      ∧ (i a).val < win0_4.index t a * S256x514.size a + S256x514.size a := by
  show i ∈ ((View.whole main_v10).slice (win0_4.rect t)).set ↔ _
  rw [View.set_slice_whole, Rect.mem_set_unit]
  exact Iff.rfl

/-- THE ARRAY after the run: every row is in the block of the point its number divided by 256 names. -/
theorem final (c : Dev nD) : (dats m 0 c).arrAt 4 cfg0.N = G m c :=
  (dats m 0 c).arrAt_eq_of_cover 4 (G m c) (fun t _ => flushed_eq m c t) fun i => by
    have h0 : (i 0).val < 16384 := (i 0).isLt
    have h1 : (i 1).val < 514 := (i 1).isLt
    let t : Fin cfg0.N := ⟨(i 0).val / 256, by rw [show cfg0.N = 64 from N_0]; omega⟩
    have hf := idx_facts t
    refine ⟨t, flush0_4 t, ?_⟩
    rw [mem_blk]
    intro a
    match a with
    | ⟨0, _⟩ =>
      show win0_4.index t (0 : Fin 2) * 256 ≤ (i 0).val ∧ (i 0).val < win0_4.index t (0 : Fin 2) * 256 + 256
      rw [hf.2.2.2.2.2.2.2.2.1]
      show (i 0).val / 256 * 256 ≤ (i 0).val ∧ (i 0).val < (i 0).val / 256 * 256 + 256
      omega
    | ⟨1, _⟩ =>
      show win0_4.index t (1 : Fin 2) * 514 ≤ (i 1).val ∧ (i 1).val < win0_4.index t (1 : Fin 2) * 514 + 514
      rw [hf.2.2.2.2.2.2.2.2.2]
      omega

end Cert.KernelIdeal.Blocks

end
-- ==== Proof.PreDecode.lean ====
import proofs.«424849_j89653147336805_3_alg».proof.Defs
import proofs.«424849_j89653147336805_3_alg».proof.Proof.Gen.KernelIdeal
import proofs.«424849_j89653147336805_3_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.PreDecode

open Cert.KernelIdeal

variable (m : (ℓ : Loc nD τ sig) → Buf (Elt Ideal) ℓ)

instance : Subsingleton (Cert.Pre_finite_inputs.S_).Idx := ⟨fun a b => funext fun d => d.elim0⟩

/-- The word 0x7F800000 is +inf. -/
theorem inf_bits : Ideal.ofBits .f32 0x7F800000#32 = (⊤ : EReal) := by simp [Ideal.ofBits, Ideal.ieee]

/-- An extended real whose absolute value is below +inf is a real. -/
theorem real_of_abs_lt (x : EReal) (h : Ideal.cmp .olt (max x (-x)) (Ideal.ofBits .f32 0x7F800000#32) = 1#1) :
    ∃ r : ℝ, x = (r : EReal) := by
  rw [inf_bits] at h
  have h' : max x (-x) < ⊤ := by
    unfold Ideal.cmp at h
    have hb := (StableHlo.Predicate.ofBool_eq_one_iff _).1 h
    simpa using hb
  induction x using EReal.rec with
  | bot => simp at h'
  | coe r => exact ⟨r, rfl⟩
  | top => simp at h'

/-- A word in [0, 24) signed is below 24 unsigned. -/
theorem toNat_lt_of_signed (w : BitVec 32) (h0 : (0#32 : BitVec 32).toInt ≤ w.toInt) (h1 : w.toInt < (24#32 : BitVec 32).toInt) :
    w.toNat < 24 := by
  have a : (0#32 : BitVec 32).toInt = 0 := by decide
  have b : (24#32 : BitVec 32).toInt = 24 := by decide
  rw [a] at h0; rw [b] at h1
  have hw := w.isLt
  by_cases hc : 2 * w.toNat < 2 ^ 32
  · have e : w.toInt = w.toNat := by unfold BitVec.toInt; rw [if_pos hc]
    omega
  · have e : w.toInt = (w.toNat : Int) - ((2 ^ 32 : Nat) : Int) := by unfold BitVec.toInt; rw [if_neg hc]
    omega

/-- Under the precondition every entry of the filter bank is a real, -/
theorem w_real (h : Cert.Pre_KernelIdeal m) (c : Dev nD) (i : S24x2x257x8.Idx) :
    ∃ r : ℝ, (m ((c : Thread nD τ).loc main_arg1) : S24x2x257x8.Idx → EReal) i = (r : EReal) := by
  have e := congrFun (h c) ix0
  unfold Cert.Pre_finite_inputs.fn at e
  simp only [andi, IntOp.andi_eq_one] at e
  obtain ⟨⟨e0, e1⟩, e2⟩ := e
  exact real_of_abs_lt _ (Host.reduce_andi_all _ _ _ _ _ e1 i)

/-- and every beam id is one of the 24 beams. -/
theorem bid_lt (h : Cert.Pre_KernelIdeal m) (c : Dev nD) (n : S16384.Idx) :
    ((m ((c : Thread nD τ).loc main_arg2) : S16384.Idx → BitVec 32) n).toNat < 24 := by
  have e := congrFun (h c) ix0
  unfold Cert.Pre_finite_inputs.fn at e
  simp only [andi, IntOp.andi_eq_one] at e
  obtain ⟨⟨e0, e1⟩, e2⟩ := e
  have t : IntOp.andi (IntOp.cmpi .sge ((m ((c : Thread nD τ).loc main_arg2) : S16384.Idx → BitVec 32) n) 0#32)
      (IntOp.cmpi .slt ((m ((c : Thread nD τ).loc main_arg2) : S16384.Idx → BitVec 32) n) 24#32) = 1#1 :=
    Host.reduce_andi_all _ _ _ _ _ e2 n
  obtain ⟨t0, t1⟩ := IntOp.andi_eq_one.1 t
  exact toNat_lt_of_signed _ (IntOp.cmpi_sge.1 t0) (IntOp.cmpi_slt.1 t1)

end Cert.KernelIdeal.PreDecode

end
-- ==== Proof.KernelValue.lean ====
import proofs.«424849_j89653147336805_3_alg».proof.Proof.Blocks
import proofs.«424849_j89653147336805_3_alg».proof.Proof.HostPre
import proofs.«424849_j89653147336805_3_alg».proof.Proof.PreDecode
import proofs.«424849_j89653147336805_3_alg».proof.Proof.Select
import proofs.«424849_j89653147336805_3_alg».proof.Proof.Spec
import Idealize.ShloMosaic.Lib.Pipeline.Value
import Idealize.ShloMosaic.Lib.StableHlo.Run
import Idealize.ShloMosaic.Lib.Tactic
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.BeamSpec Idealize.ShloMosaic.StableHlo

variable (m : (ℓ : Loc nD τ sig) → Buf (Elt Ideal) ℓ) (ρ : Dev nD → PrngReg)

/-- The program's result: the merged array split into its (real, imaginary) halves, with a trailing unit axis. -/
abbrev res (c : Dev nD) : S16384x2x257x1.Idx → EReal :=
  broadcastInDim S16384x2x257x1 ![0, 1, 2] (by decide) (shapeCast S16384x2x257 (Blocks.G m c) (by decide))

/-- The two host lines after the region compute it from the region's result array. -/
theorem tail_eq (c : Dev nD) :
    (Pipeline.afterTail₀ cfgs (dats m) 0 (V0 m) [hostOps1] c main_v12 : S16384x2x257x1.Idx → EReal) = res m c := by
  unfold Pipeline.afterTail₀
  show StableHlo.after hostOps1 _ (Proc.devRef .tc main_v12) = _
  after_results
  rw [(Pipeline.withArrays_arr spec0 launch0.win.arr_inj c _ _ 4).trans (Blocks.final m c)]
  rfl

/-- THE RUN, read: every weakly fair execution ends with the result buffer at `res` and the arguments unchanged. -/
theorem run : θ_run defs (onTc (τ := τ) (main (F := Ideal))) ⟨m, fun _ => 0, ρ⟩ fun r => ∀ c : Dev nD,
      r.2.mem ((c.tc : Thread nD τ).loc main_v12) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- Under the precondition the one-hot row of frame n is the indicator of its beam: the clip leaves an id in [0, 24) alone. -/
theorem onehot_indicator (hpre : Cert.Pre_KernelIdeal m) (c : Dev nD) (n : Fin 16384) (k : Fin 24) :
    Blocks.OH m c (ix2 n k) = if k = selOf (HostPre.bid m c) n then 1 else 0 := by
  show (V m c main_v9 : S16384x24.Idx → EReal) (ix2 n k) = _
  rw [HostPre.onehot_apply]
  have e1 : (Shape.Idx.ofFin n : S16384.Idx) = ix1 n := by funext d; match d with | ⟨0, _⟩ => rfl
  rw [e1]
  have hb := PreDecode.bid_lt m hpre c (ix1 n)
  rw [HostPre.clipw_of_lt _ hb, Select.indicator_of_lt _ hb, selOf_val _ n hb]

/-- THE KERNEL'S RESULT is the closed form: the merged array read through the reshape and the trailing unit axis, with the arrays the
    region finds read back to the arguments. -/
theorem res_eq (hpre : Cert.Pre_KernelIdeal m) (c : Dev nD) :
    res m c = beamSum (HostPre.xin m c) (HostPre.win m c) (selOf (HostPre.bid m c)) := by
  funext i
  obtain ⟨n, ri, f, z, rfl⟩ : ∃ (n : Fin 16384) (ri : Fin 2) (f : Fin 257) (z : Fin 1), i = ix4 n ri f z :=
    ⟨i 0, i 1, i 2, i 3, eq_ix4 i⟩
  obtain rfl : z = 0 := Subsingleton.elim _ _
  have hf := f.isLt
  have hri : ri.val < 2 := ri.isLt
  refine (broadcastInDim_apply _ _ _ (ix4 n ri f 0) (ix3 n ri f) (fun a => by
    match a with
    | ⟨0, _⟩ => show n.val = if (16384 : Nat) = 1 then 0 else n.val; rw [if_neg (by decide)]
    | ⟨1, _⟩ => show ri.val = if (2 : Nat) = 1 then 0 else ri.val; rw [if_neg (by decide)]
    | ⟨2, _⟩ => show f.val = if (257 : Nat) = 1 then 0 else f.val; rw [if_neg (by decide)])).trans ?_
  refine (shapeCast_apply _ _ (ix3 n ri f) (ix2 n ⟨ri.val * 257 + f.val, by omega⟩) (by
    rw [Shape.rowMajor_val_two, Shape.rowMajor_val_three]
    show n.val * 514 + (ri.val * 257 + f.val) = (n.val * 2 + ri.val) * 257 + f.val
    omega)).trans ?_
  exact merged_eq_beamSum (Blocks.XM m c) (Blocks.OH m c) (Blocks.WHI m c) (Blocks.WLO m c) (HostPre.xin m c) (HostPre.win m c)
    (selOf (HostPre.bid m c))
    (fun n r ch f j hj => HostPre.xflat_apply m c n r ch f j hj) (fun b r ch f j hj => HostPre.whi_apply m c b r ch f j hj)
    (fun b r ch f j hj => HostPre.wlo_apply m c b r ch f j hj) (fun n k => onehot_indicator m hpre c n k)
    (fun i => PreDecode.w_real m hpre c i) n ri f ⟨ri.val * 257 + f.val, by omega⟩ rfl

end Cert.KernelIdeal.Value

end
-- ==== Proof.RefValue.lean ====
import proofs.«424849_j89653147336805_3_alg».proof.Proof.Gen.ReferenceIdeal.Read
import proofs.«424849_j89653147336805_3_alg».proof.Proof.Spec
import Idealize.ShloMosaic.Lib.Pipeline.Value
import Idealize.ShloMosaic.Lib.ValueIdx
import Idealize.ShloMosaic.Lib.StableHlo.Predicate
import Idealize.ShloMosaic.Lib.Affine
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.BeamSpec Idealize.ShloMosaic.StableHlo

/-! ## The gather of the filter bank's rows

W[beam_id] prints as a gather whose start index on the bank's leading axis is the id (negative ids wrapped by 24 first), read
signed and clamped into [0, 23]; the other three axes are copied whole. -/

/-- The gather's dimension numbers. -/
abbrev GD : GatherDims S24x2x257x8 S16384x1 S16384x2x257x8 := gather_S24x2x257x8_S16384x1_S16384x2x257x8_123_0_n_n_0_1_122578

theorem g0 (j : S16384x2x257x8.Idx) (idx : IVec S16384x1 32) :
    (GD.operandIdx j idx 0).val = min (idx (GD.siIdx j ⟨0, by decide⟩)).toInt.toNat 23 := by
  show GD.start j idx 0 + GD.batchCoord j 0 + GD.offCoord j 0 = _
  rw [GatherDims.batchCoord_eq_zero _ _ _ (by decide), GatherDims.offCoord_eq_zero _ _ _ (by decide)]
  unfold GatherDims.start
  rw [dif_pos (by decide)]
  rfl

theorem g1 (j : S16384x2x257x8.Idx) (idx : IVec S16384x1 32) : (GD.operandIdx j idx 1).val = (j 1).val := by
  show GD.start j idx 1 + GD.batchCoord j 1 + GD.offCoord j 1 = _
  rw [GatherDims.batchCoord_eq_zero _ _ _ (by decide)]
  unfold GatherDims.start GatherDims.offCoord
  rw [dif_neg (by decide), dif_pos (by decide)]
  simp only [Nat.zero_add, Nat.add_zero]
  rfl

theorem g2 (j : S16384x2x257x8.Idx) (idx : IVec S16384x1 32) : (GD.operandIdx j idx 2).val = (j 2).val := by
  show GD.start j idx 2 + GD.batchCoord j 2 + GD.offCoord j 2 = _
  rw [GatherDims.batchCoord_eq_zero _ _ _ (by decide)]
  unfold GatherDims.start GatherDims.offCoord
  rw [dif_neg (by decide), dif_pos (by decide)]
  simp only [Nat.zero_add, Nat.add_zero]
  rfl

theorem g3 (j : S16384x2x257x8.Idx) (idx : IVec S16384x1 32) : (GD.operandIdx j idx 3).val = (j 3).val := by
  show GD.start j idx 3 + GD.batchCoord j 3 + GD.offCoord j 3 = _
  rw [GatherDims.batchCoord_eq_zero _ _ _ (by decide)]
  unfold GatherDims.start GatherDims.offCoord
  rw [dif_neg (by decide), dif_pos (by decide)]
  simp only [Nat.zero_add, Nat.add_zero]
  rfl

/-- The gather at (n, r, f, k): row (start index of n, clamped) of the bank, at (r, f, k). -/
theorem gathered_apply (x1 : S24x2x257x8.Idx → EReal) (idx : IVec S16384x1 32) (n : Fin 16384) (r : Fin 2) (f : Fin 257) (k : Fin 8) :
    Host.gather GD x1 idx (ix4 n r f k) = x1 (ix4 ⟨min (idx (Predicate.ixP n)).toInt.toNat 23, by omega⟩ r f k) := by
  have hsi : GD.siIdx (ix4 n r f k) ⟨0, by decide⟩ = Predicate.ixP n := by
    funext b; refine Fin.ext ?_
    match b with
    | ⟨0, _⟩ => rfl
    | ⟨1, _⟩ => rfl
  unfold Host.gather
  congr 1
  funext a
  apply Fin.ext
  match a with
  | ⟨0, _⟩ => exact (g0 _ _).trans (by rw [hsi])
  | ⟨1, _⟩ => exact g1 _ _
  | ⟨2, _⟩ => exact g2 _ _
  | ⟨3, _⟩ => exact g3 _ _

/-! ## The reference, stage by stage, at an index -/

theorem r8 (x0 : S16384x2x257x8.Idx → EReal) (n : Fin 16384) (f : Fin 257) (k : Fin 8) :
    val_main_v8 (F := Ideal) x0 (ix3 n f k) = x0 (ix4 n 0 f k) := by
  rw [val_main_v8_apply, val_main_v7_apply]
  congr 1
  funext a
  apply Fin.ext
  have hf := f.isLt
  have hk := k.isLt
  match a with
  | ⟨0, _⟩ => show ((n.val * 257 + f.val) * 8 + k.val) / 2056 = n.val; omega
  | ⟨1, _⟩ => rfl
  | ⟨2, _⟩ => show ((n.val * 257 + f.val) * 8 + k.val) / 8 % 257 = f.val; omega
  | ⟨3, _⟩ => show ((n.val * 257 + f.val) * 8 + k.val) % 8 = k.val; omega

theorem r10 (x0 : S16384x2x257x8.Idx → EReal) (n : Fin 16384) (f : Fin 257) (k : Fin 8) :
    val_main_v10 (F := Ideal) x0 (ix3 n f k) = x0 (ix4 n 1 f k) := by
  rw [val_main_v10_apply, val_main_v9_apply]
  congr 1
  funext a
  apply Fin.ext
  have hf := f.isLt
  have hk := k.isLt
  match a with
  | ⟨0, _⟩ => show ((n.val * 257 + f.val) * 8 + k.val) / 2056 = n.val; omega
  | ⟨1, _⟩ => rfl
  | ⟨2, _⟩ => show ((n.val * 257 + f.val) * 8 + k.val) / 8 % 257 = f.val; omega
  | ⟨3, _⟩ => show ((n.val * 257 + f.val) * 8 + k.val) % 8 = k.val; omega

theorem r12 (x1 : S24x2x257x8.Idx → EReal) (x2 : S16384.Idx → BitVec 32) (n : Fin 16384) (f : Fin 257) (k : Fin 8) :
    val_main_v12 (F := Ideal) x1 x2 (ix3 n f k) = val_main_v6 (F := Ideal) x1 x2 (ix4 n 0 f k) := by
  rw [val_main_v12_apply, val_main_v11_apply]
  congr 1
  funext a
  apply Fin.ext
  have hf := f.isLt
  have hk := k.isLt
  match a with
  | ⟨0, _⟩ => show ((n.val * 257 + f.val) * 8 + k.val) / 2056 = n.val; omega
  | ⟨1, _⟩ => rfl
  | ⟨2, _⟩ => show ((n.val * 257 + f.val) * 8 + k.val) / 8 % 257 = f.val; omega
  | ⟨3, _⟩ => show ((n.val * 257 + f.val) * 8 + k.val) % 8 = k.val; omega

theorem r14 (x1 : S24x2x257x8.Idx → EReal) (x2 : S16384.Idx → BitVec 32) (n : Fin 16384) (f : Fin 257) (k : Fin 8) :
    val_main_v14 (F := Ideal) x1 x2 (ix3 n f k) = val_main_v6 (F := Ideal) x1 x2 (ix4 n 1 f k) := by
  rw [val_main_v14_apply, val_main_v13_apply]
  congr 1
  funext a
  apply Fin.ext
  have hf := f.isLt
  have hk := k.isLt
  match a with
  | ⟨0, _⟩ => show ((n.val * 257 + f.val) * 8 + k.val) / 2056 = n.val; omega
  | ⟨1, _⟩ => rfl
  | ⟨2, _⟩ => show ((n.val * 257 + f.val) * 8 + k.val) / 8 % 257 = f.val; omega
  | ⟨3, _⟩ => show ((n.val * 257 + f.val) * 8 + k.val) % 8 = k.val; omega

/-- For an id in [0, 24) the start index the gather reads (the id, wrapped by 24 when negative, read signed, clamped to 23) is the id. -/
theorem start_eq (x2 : S16384.Idx → BitVec 32) (hb : ∀ i, (x2 i).toNat < 24) (n : Fin 16384) :
    min (val_main_v5 (F := Ideal) x2 (Predicate.ixP n)).toInt.toNat 23 = (selOf x2 n).val := by
  rw [val_main_v5_apply]
  have hi : idx_main_v5 (Predicate.ixP n) = ix1 n := by funext a; match a with | ⟨0, _⟩ => rfl
  rw [hi, val_main_v4_apply, val_main_v1_apply]
  have h0 : val_main_v0 (F := Ideal) (ix1 n) = 0#32 := by rw [val_main_v0_apply]; rfl
  rw [h0]
  have hw := hb (ix1 n)
  have hti : (x2 (ix1 n)).toInt = (x2 (ix1 n)).toNat := Predicate.toInt_eq_toNat_of_lt (by omega)
  have hc : IntOp.cmpi .slt (x2 (ix1 n)) 0#32 = 0#1 := eq_zero_of_ne_one (fun e => by
    have h1 := IntOp.cmpi_slt.1 e
    rw [hti, show (0#32 : BitVec 32).toInt = 0 from by decide] at h1
    omega)
  rw [hc, show Scalar.select (0#1 : BitVec 1) (val_main_v3 (F := Ideal) x2 (ix1 n)) (x2 (ix1 n)) = x2 (ix1 n) from if_neg (by decide),
    hti, Int.toNat_natCast]
  rfl

/-- The gathered bank at (n, r, f, k): the filter of frame n's beam. -/
theorem row_eq (x1 : S24x2x257x8.Idx → EReal) (x2 : S16384.Idx → BitVec 32) (hb : ∀ i, (x2 i).toNat < 24) (n : Fin 16384) (r : Fin 2) (f : Fin 257) (k : Fin 8) :
    val_main_v6 (F := Ideal) x1 x2 (ix4 n r f k) = x1 (ix4 (selOf x2 n) r f k) := by
  unfold val_main_v6
  rw [gathered_apply]
  exact congrArg (fun s => x1 (ix4 s r f k)) (Fin.ext (start_eq x2 hb n))

/-- THE REFERENCE'S RESULT is the closed form: its two sums over the channels, stacked and given a trailing unit axis. -/
theorem ref_eq (x0 : S16384x2x257x8.Idx → EReal) (x1 : S24x2x257x8.Idx → EReal) (x2 : S16384.Idx → BitVec 32) (hb : ∀ i, (x2 i).toNat < 24) :
    val_main_v26 (F := Ideal) x0 x1 x2 = beamSum x0 x1 (selOf x2) := by
  funext i
  obtain ⟨n, ri, f, z, rfl⟩ : ∃ (n : Fin 16384) (ri : Fin 2) (f : Fin 257) (z : Fin 1), i = ix4 n ri f z :=
    ⟨i 0, i 1, i 2, i 3, eq_ix4 i⟩
  rw [val_main_v26_apply]
  unfold val_main_v25
  match ri with
  | ⟨0, _⟩ =>
    refine (concatenate_pair_apply_left 1 _ _ concatenates_S16384x1x257_S16384x1x257_S16384x2x257_d1 _ rfl (ix3 n 0 f) (fun b => by
      match b with
      | ⟨0, _⟩ => rfl
      | ⟨1, _⟩ => rfl
      | ⟨2, _⟩ => rfl)).trans ?_
    rw [val_main_v23_apply, val_main_v18_apply]
    unfold beamSum
    rw [if_pos rfl]
    refine congrArg₂ (· + ·) Ideal.ofBits_zero_f32 (Finset.sum_congr rfl fun k _ => ?_)
    have hJ : idx_main_v18 (idx_main_v23 (ix3 n 0 f)) k = ix3 n f k := by
      funext a; match a with | ⟨0, _⟩ => rfl | ⟨1, _⟩ => rfl | ⟨2, _⟩ => rfl
    rw [hJ, val_main_v17_apply, val_main_v15_apply, val_main_v16_apply, r8, r10, r12, r14, row_eq x1 x2 hb, row_eq x1 x2 hb]
    rfl
  | ⟨1, _⟩ =>
    refine (concatenate_pair_apply_right 1 _ _ concatenates_S16384x1x257_S16384x1x257_S16384x2x257_d1 _ rfl rfl (ix3 n 0 f)
      (fun b hb' => by
        match b with
        | ⟨0, _⟩ => rfl
        | ⟨1, _⟩ => exact absurd rfl hb'
        | ⟨2, _⟩ => rfl)
      rfl).trans ?_
    rw [val_main_v24_apply, val_main_v22_apply]
    unfold beamSum
    rw [if_neg (show ¬ ((ix4 n (⟨1, by decide⟩ : Fin 2) f z : S16384x2x257x1.Idx) 1).val = 0 from Nat.one_ne_zero)]
    refine congrArg₂ (· + ·) Ideal.ofBits_zero_f32 (Finset.sum_congr rfl fun k _ => ?_)
    have hJ : idx_main_v22 (idx_main_v24 (ix3 n 0 f)) k = ix3 n f k := by
      funext a; match a with | ⟨0, _⟩ => rfl | ⟨1, _⟩ => rfl | ⟨2, _⟩ => rfl
    rw [hJ, val_main_v21_apply, val_main_v19_apply, val_main_v20_apply, r8, r10, r12, r14, row_eq x1 x2 hb, row_eq x1 x2 hb]
    rfl

end Cert.ReferenceIdeal.RefValue

end
-- ==== Proof.lean ====
/-
  The beam filter-and-sum kernel against its reference, over the extended reals.

  Each of 16384 frames has a complex spectrum x[n, ·, f, c] (257 bins, 8 channels; real part at index 0 of the second axis, imaginary at 1) and
  a beam id; the beam's complex filter is w[id, ·, f, c]. The result at (n, ·, f, 0) is Σ_c conj(w)·x: real part Σ_c (xr·wr + xi·wi),
  imaginary part Σ_c (xi·wr − xr·wi).

  The reference gathers row id of the bank (a negative id wrapped by 24, the start index then clamped to [0, 23]) and sums over the channel
  axis. The kernel merges each row channel-major into 4112 columns, clips the id to [0, 23], selects the filter by a one-hot row times the
  bank split into two halves hi + lo (lo = w − hi; a change of float format is the identity here, so hi = w and lo = w − w), and folds the
  eight channels first to last into a [16384, 514] array (real half, imaginary half), which the host reshapes.

  The two agree when w − w = 0, which holds because the precondition makes every entry of w a real, and when the clip and the wrap pick the
  same row, which holds for ids in [0, 24): the precondition's added conjunct. (For an id in [−23, −1] the reference reads row id + 24 and
  the kernel row 0.) Addition of extended reals is associative and commutative, so the fold is the sum; x need not be finite.

  The argument, module by module: the body's two stores are the two folds (Body); the arrays the region finds are functions of the
  arguments (HostPre); every grid point writes its 256 rows of one whole-array function, and the host lines after the region reshape it
  (Blocks, KernelValue); the reference is read at an index (RefValue); the precondition gives the reals and the id range (PreDecode); and
  the mathematics joining the two sides is in Spec. The frames of the two kernel programs are the generated ones; the reference's frame is
  its generated run.
-/
import proofs.«424849_j89653147336805_3_alg».proof.Defs
import proofs.«424849_j89653147336805_3_alg».proof.Proof.Gen.Kernel
import proofs.«424849_j89653147336805_3_alg».proof.Proof.Gen.Kernel.Skeleton
import proofs.«424849_j89653147336805_3_alg».proof.Proof.Gen.Kernel.Launch
import proofs.«424849_j89653147336805_3_alg».proof.Proof.Gen.Kernel.Points
import proofs.«424849_j89653147336805_3_alg».proof.Proof.Gen.Kernel.Frame
import proofs.«424849_j89653147336805_3_alg».proof.Proof.Gen.KernelIdeal
import proofs.«424849_j89653147336805_3_alg».proof.Proof.Gen.KernelIdeal.Skeleton
import proofs.«424849_j89653147336805_3_alg».proof.Proof.Gen.KernelIdeal.Launch
import proofs.«424849_j89653147336805_3_alg».proof.Proof.Gen.KernelIdeal.Points
import proofs.«424849_j89653147336805_3_alg».proof.Proof.Gen.KernelIdeal.Frame
import proofs.«424849_j89653147336805_3_alg».proof.Proof.Gen.ReferenceIdeal
import proofs.«424849_j89653147336805_3_alg».proof.Proof.Gen.ReferenceIdeal.Run
import proofs.«424849_j89653147336805_3_alg».proof.Proof.Gen.ReferenceIdeal.Read
import proofs.«424849_j89653147336805_3_alg».proof.Proof.Gen.Pre_finite_inputs
import proofs.«424849_j89653147336805_3_alg».proof.Proof.KernelValue
import proofs.«424849_j89653147336805_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the closed-form sum of arguments that agree. -/
theorem algebraic : Cert.algebraic_KernelIdeal_ReferenceIdeal := by
  intro m ρ m' ρ' hpre hagree
  refine ⟨fun c => Cert.BeamSpec.beamSum (Cert.KernelIdeal.HostPre.xin m c) (Cert.KernelIdeal.HostPre.win m c)
    (Cert.BeamSpec.selOf (Cert.KernelIdeal.HostPre.bid m c)), ?_, ?_⟩
  · exact (θ_run Cert.KernelIdeal.defs _ _).mono
      (fun _ h c => ⟨(h c).1.trans (Cert.KernelIdeal.Value.res_eq m hpre c), (h c).2⟩) (Cert.KernelIdeal.Value.run m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v26_eq _ _ _).trans
      (Cert.ReferenceIdeal.RefValue.ref_eq _ _ _ (fun i => Cert.KernelIdeal.PreDecode.bid_lt m hpre c i))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
